-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192 : Shape := ⟨2, ![8, 8192]⟩
abbrev S8x16384x96 : Shape := ⟨3, ![8, 16384, 96]⟩
abbrev S768 : Shape := ⟨1, ![768]⟩
abbrev S_ : Shape := ⟨0, ![]⟩

class Facts : Prop where
  bcast_S_S8x16384x96 : S_.BroadcastsInDim S8x16384x96 (![] : Fin 0 → Fin S8x16384x96.rank)
  reducesTo_S8x16384x96_S_d0_1_2 : S8x16384x96.ReducesTo [0, 1, 2] S_
  h_S_ : 0 < S_.numel
  bcast_S_S768 : S_.BroadcastsInDim S768 (![] : Fin 0 → Fin S768.rank)
  reducesTo_S768_S_d0 : S768.ReducesTo [0] S_

variable [Facts]

def fn {F : FTy → Type} [FloatOps F] (main_arg0 : IVec S8x8192 32) (main_arg1 : FVec F S8x16384x96 .f32) (main_arg2 : FVec F S768 .f32) (main_arg3 : FVec F S768 .f32) : IVec S_ 1 :=
  let main_v0 : FVec F S8x16384x96 .f32 := Host.absf main_arg1
  let main_cst : FVec F S_ .f32 := constant S_ .f32 0x7F800000#32
  let main_v1 : FVec F S8x16384x96 .f32 := broadcastInDim S8x16384x96 ![] bcast_S_S8x16384x96 main_cst
  let main_v2 : IVec S8x16384x96 1 := cmpf .olt main_v0 main_v1
  let main_c : IVec S_ 1 := constantI S_ 1 1#1
  let main_v3 : IVec S_ 1 := (fun x v => Host.reduce IntOp.andi x v reducesTo_S8x16384x96_S_d0_1_2 h_S_) main_v2 main_c
  let main_v4 : FVec F S768 .f32 := Host.absf main_arg2
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768 .f32 := Host.absf main_arg3
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S8x8192 : Shape := ⟨2, ![8, 8192]⟩
abbrev S8x16384x96 : Shape := ⟨3, ![8, 16384, 96]⟩
abbrev S768 : Shape := ⟨1, ![768]⟩
abbrev S8 : Shape := ⟨1, ![8]⟩
abbrev S65536 : Shape := ⟨1, ![65536]⟩
abbrev S1x65536 : Shape := ⟨2, ![1, 65536]⟩
abbrev S_ : Shape := ⟨0, ![]⟩
abbrev S8x1 : Shape := ⟨2, ![8, 1]⟩
abbrev S8x65536 : Shape := ⟨2, ![8, 65536]⟩
abbrev S65536x768 : Shape := ⟨2, ![65536, 768]⟩
abbrev S8x512 : Shape := ⟨2, ![8, 512]⟩
abbrev S512x768 : Shape := ⟨2, ![512, 768]⟩
abbrev S1x512 : Shape := ⟨2, ![1, 512]⟩
abbrev S512 : Shape := ⟨1, ![512]⟩
abbrev S512x1 : Shape := ⟨2, ![512, 1]⟩
abbrev S512x96 : Shape := ⟨2, ![512, 96]⟩
abbrev S1x4096x96 : Shape := ⟨3, ![1, 4096, 96]⟩
abbrev S4096x96 : Shape := ⟨2, ![4096, 96]⟩
abbrev S512x4096 : Shape := ⟨2, ![512, 4096]⟩
abbrev S1x768 : Shape := ⟨2, ![1, 768]⟩
abbrev S8x8192x768 : Shape := ⟨3, ![8, 8192, 768]⟩

abbrev nBuf : Space → Nat
  | .hbm => 39
  | .vmem => 7
  | .smem => 0
  | _ => 0

abbrev bufTy : (tb : Table) → Fin (tcTables nBuf tb) → BufTy
  | .hbm, ⟨0, _⟩ => ⟨S8x8192, .i32⟩
  | .hbm, ⟨1, _⟩ => ⟨S8x16384x96, .f32⟩
  | .hbm, ⟨2, _⟩ => ⟨S768, .f32⟩
  | .hbm, ⟨3, _⟩ => ⟨S768, .f32⟩
  | .hbm, ⟨4, _⟩ => ⟨S8, .i32⟩
  | .hbm, ⟨5, _⟩ => ⟨S65536, .i32⟩
  | .hbm, ⟨6, _⟩ => ⟨S1x65536, .i32⟩
  | .hbm, ⟨7, _⟩ => ⟨S_, .i32⟩
  | .hbm, ⟨8, _⟩ => ⟨S1x65536, .i32⟩
  | .hbm, ⟨9, _⟩ => ⟨S1x65536, .i32⟩
  | .hbm, ⟨10, _⟩ => ⟨S8x1, .i32⟩
  | .hbm, ⟨11, _⟩ => ⟨S8x65536, .i32⟩
  | .hbm, ⟨12, _⟩ => ⟨S8x65536, .i32⟩
  | .hbm, ⟨13, _⟩ => ⟨S8x65536, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S8x65536, .i32⟩
  | .hbm, ⟨21, _⟩ => ⟨S8x65536, .i32⟩
  | .hbm, ⟨22, _⟩ => ⟨S_, .i32⟩
  | .hbm, ⟨23, _⟩ => ⟨S8x65536, .i32⟩
  | .hbm, ⟨24, _⟩ => ⟨S8x65536, .i1⟩
  | .hbm, ⟨25, _⟩ => ⟨S_, .i32⟩
  | .hbm, ⟨26, _⟩ => ⟨S8x65536, .i32⟩
  | .hbm, ⟨27, _⟩ => ⟨S8x65536, .i1⟩
  | .hbm, ⟨28, _⟩ => ⟨S_, .i32⟩
  | .hbm, ⟨29, _⟩ => ⟨S_, .i1⟩
  | .hbm, ⟨30, _⟩ => ⟨S8x65536, .i1⟩
  | .hbm, ⟨31, _⟩ => ⟨S8x65536, .i1⟩
  | .hbm, ⟨32, _⟩ => ⟨S8x65536, .i1⟩
  | .hbm, ⟨33, _⟩ => ⟨S8x65536, .i32⟩
  | .hbm, ⟨34, _⟩ => ⟨S8x65536, .i32⟩
  | .hbm, ⟨35, _⟩ => ⟨S8x65536, .i32⟩
  | .hbm, ⟨36, _⟩ => ⟨S8x16384x96, .bf16⟩
  | .hbm, ⟨37, _⟩ => ⟨S65536x768, .f32⟩
  | .hbm, ⟨38, _⟩ => ⟨S8x8192x768, .f32⟩
  | .local _ .vmem, ⟨0, _⟩ => ⟨S8x512, .i32⟩
  | .local _ .vmem, ⟨1, _⟩ => ⟨S8x512, .i32⟩
  | .local _ .vmem, ⟨2, _⟩ => ⟨S8x16384x96, .bf16⟩
  | .local _ .vmem, ⟨3, _⟩ => ⟨S768, .f32⟩
  | .local _ .vmem, ⟨4, _⟩ => ⟨S768, .f32⟩
  | .local _ .vmem, ⟨5, _⟩ => ⟨S512x768, .f32⟩
  | .local _ .vmem, ⟨6, _⟩ => ⟨S512x768, .f32⟩
  | _, _ => ⟨S8x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x16384x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x8192_S65536 : S8x8192.ShapeCasts S65536
  bcast_S65536_S1x65536_1 : S65536.BroadcastsInDim S1x65536 (![1] : Fin 1 → Fin S1x65536.rank)
  bcast_S_S1x65536 : S_.BroadcastsInDim S1x65536 (![] : Fin 0 → Fin S1x65536.rank)
  bcast_S8_S8x1_0 : S8.BroadcastsInDim S8x1 (![0] : Fin 1 → Fin S8x1.rank)
  bcast_S1x65536_S8x65536_0_1 : S1x65536.BroadcastsInDim S8x65536 (![0, 1] : Fin 2 → Fin S8x65536.rank)
  bcast_S8x1_S8x65536_0_1 : S8x1.BroadcastsInDim S8x65536 (![0, 1] : Fin 2 → Fin S8x65536.rank)
  bcast_S_S8x65536 : S_.BroadcastsInDim S8x65536 (![] : Fin 0 → Fin S8x65536.rank)
  bitsLt_bf16_f32 : FTy.bits .bf16 < FTy.bits .f32
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o0_0_S1x512 : S8x512.Slices ![0, 0] S1x512
  shapeCasts_S1x512_S512 : S1x512.ShapeCasts S512
  shapeCasts_S512_S512x1 : S512.ShapeCasts S512x1
  inb_S8x16384x96_S1x4096x96_0_0_0 : ∀ a, (![0, 0, 0] : Fin 3 → Nat) a + S1x4096x96.size a ≤ S8x16384x96.size a
  h_S1x4096x96 : 0 < S1x4096x96.numel
  shapeCasts_S1x4096x96_S4096x96 : S1x4096x96.ShapeCasts S4096x96
  iota_S512x4096_d1_w32 : S512x4096.Iotas .tc 32 [1]
  broadcasts_S512x1_S512x4096 : S512x1.Broadcasts S512x4096
  natLt_1_32 : 1 < 32
  inb_S8x16384x96_S1x4096x96_0_4096_0 : ∀ a, (![0, 4096, 0] : Fin 3 → Nat) a + S1x4096x96.size a ≤ S8x16384x96.size a
  inb_S8x16384x96_S1x4096x96_0_8192_0 : ∀ a, (![0, 8192, 0] : Fin 3 → Nat) a + S1x4096x96.size a ≤ S8x16384x96.size a
  inb_S8x16384x96_S1x4096x96_0_12288_0 : ∀ a, (![0, 12288, 0] : Fin 3 → Nat) a + S1x4096x96.size a ≤ S8x16384x96.size a
  slices_S8x512_o1_0_S1x512 : S8x512.Slices ![1, 0] S1x512
  inb_S8x16384x96_S1x4096x96_1_0_0 : ∀ a, (![1, 0, 0] : Fin 3 → Nat) a + S1x4096x96.size a ≤ S8x16384x96.size a
  inb_S8x16384x96_S1x4096x96_1_4096_0 : ∀ a, (![1, 4096, 0] : Fin 3 → Nat) a + S1x4096x96.size a ≤ S8x16384x96.size a
  inb_S8x16384x96_S1x4096x96_1_8192_0 : ∀ a, (![1, 8192, 0] : Fin 3 → Nat) a + S1x4096x96.size a ≤ S8x16384x96.size a
  inb_S8x16384x96_S1x4096x96_1_12288_0 : ∀ a, (![1, 12288, 0] : Fin 3 → Nat) a + S1x4096x96.size a ≤ S8x16384x96.size a
  slices_S8x512_o2_0_S1x512 : S8x512.Slices ![2, 0] S1x512
  inb_S8x16384x96_S1x4096x96_2_0_0 : ∀ a, (![2, 0, 0] : Fin 3 → Nat) a + S1x4096x96.size a ≤ S8x16384x96.size a
  inb_S8x16384x96_S1x4096x96_2_4096_0 : ∀ a, (![2, 4096, 0] : Fin 3 → Nat) a + S1x4096x96.size a ≤ S8x16384x96.size a
  inb_S8x16384x96_S1x4096x96_2_8192_0 : ∀ a, (![2, 8192, 0] : Fin 3 → Nat) a + S1x4096x96.size a ≤ S8x16384x96.size a
  inb_S8x16384x96_S1x4096x96_2_12288_0 : ∀ a, (![2, 12288, 0] : Fin 3 → Nat) a + S1x4096x96.size a ≤ S8x16384x96.size a
  slices_S8x512_o3_0_S1x512 : S8x512.Slices ![3, 0] S1x512
  inb_S8x16384x96_S1x4096x96_3_0_0 : ∀ a, (![3, 0, 0] : Fin 3 → Nat) a + S1x4096x96.size a ≤ S8x16384x96.size a
  inb_S8x16384x96_S1x4096x96_3_4096_0 : ∀ a, (![3, 4096, 0] : Fin 3 → Nat) a + S1x4096x96.size a ≤ S8x16384x96.size a
  inb_S8x16384x96_S1x4096x96_3_8192_0 : ∀ a, (![3, 8192, 0] : Fin 3 → Nat) a + S1x4096x96.size a ≤ S8x16384x96.size a
  inb_S8x16384x96_S1x4096x96_3_12288_0 : ∀ a, (![3, 12288, 0] : Fin 3 → Nat) a + S1x4096x96.size a ≤ S8x16384x96.size a
  slices_S8x512_o4_0_S1x512 : S8x512.Slices ![4, 0] S1x512
  inb_S8x16384x96_S1x4096x96_4_0_0 : ∀ a, (![4, 0, 0] : Fin 3 → Nat) a + S1x4096x96.size a ≤ S8x16384x96.size a
  inb_S8x16384x96_S1x4096x96_4_4096_0 : ∀ a, (![4, 4096, 0] : Fin 3 → Nat) a + S1x4096x96.size a ≤ S8x16384x96.size a
  inb_S8x16384x96_S1x4096x96_4_8192_0 : ∀ a, (![4, 8192, 0] : Fin 3 → Nat) a + S1x4096x96.size a ≤ S8x16384x96.size a
  inb_S8x16384x96_S1x4096x96_4_12288_0 : ∀ a, (![4, 12288, 0] : Fin 3 → Nat) a + S1x4096x96.size a ≤ S8x16384x96.size a
  slices_S8x512_o5_0_S1x512 : S8x512.Slices ![5, 0] S1x512
  inb_S8x16384x96_S1x4096x96_5_0_0 : ∀ a, (![5, 0, 0] : Fin 3 → Nat) a + S1x4096x96.size a ≤ S8x16384x96.size a
  inb_S8x16384x96_S1x4096x96_5_4096_0 : ∀ a, (![5, 4096, 0] : Fin 3 → Nat) a + S1x4096x96.size a ≤ S8x16384x96.size a
  inb_S8x16384x96_S1x4096x96_5_8192_0 : ∀ a, (![5, 8192, 0] : Fin 3 → Nat) a + S1x4096x96.size a ≤ S8x16384x96.size a
  inb_S8x16384x96_S1x4096x96_5_12288_0 : ∀ a, (![5, 12288, 0] : Fin 3 → Nat) a + S1x4096x96.size a ≤ S8x16384x96.size a
  slices_S8x512_o6_0_S1x512 : S8x512.Slices ![6, 0] S1x512
  inb_S8x16384x96_S1x4096x96_6_0_0 : ∀ a, (![6, 0, 0] : Fin 3 → Nat) a + S1x4096x96.size a ≤ S8x16384x96.size a
  inb_S8x16384x96_S1x4096x96_6_4096_0 : ∀ a, (![6, 4096, 0] : Fin 3 → Nat) a + S1x4096x96.size a ≤ S8x16384x96.size a
  inb_S8x16384x96_S1x4096x96_6_8192_0 : ∀ a, (![6, 8192, 0] : Fin 3 → Nat) a + S1x4096x96.size a ≤ S8x16384x96.size a
  inb_S8x16384x96_S1x4096x96_6_12288_0 : ∀ a, (![6, 12288, 0] : Fin 3 → Nat) a + S1x4096x96.size a ≤ S8x16384x96.size a
  slices_S8x512_o7_0_S1x512 : S8x512.Slices ![7, 0] S1x512
  inb_S8x16384x96_S1x4096x96_7_0_0 : ∀ a, (![7, 0, 0] : Fin 3 → Nat) a + S1x4096x96.size a ≤ S8x16384x96.size a
  inb_S8x16384x96_S1x4096x96_7_4096_0 : ∀ a, (![7, 4096, 0] : Fin 3 → Nat) a + S1x4096x96.size a ≤ S8x16384x96.size a
  inb_S8x16384x96_S1x4096x96_7_8192_0 : ∀ a, (![7, 8192, 0] : Fin 3 → Nat) a + S1x4096x96.size a ≤ S8x16384x96.size a
  inb_S8x16384x96_S1x4096x96_7_12288_0 : ∀ a, (![7, 12288, 0] : Fin 3 → Nat) a + S1x4096x96.size a ≤ S8x16384x96.size a
  concatenates_S512x96_S512x96_S512x96_S512x96_S512x96_S512x96_S512x96_S512x96_S512x768_d1 : Shape.Concatenates [S512x96, S512x96, S512x96, S512x96, S512x96, S512x96, S512x96, S512x96] S512x768 1
  reduces_S512x768_S512 : S512x768.Reduces [1] S512
  broadcasts_S512x1_S512x768 : S512x1.Broadcasts S512x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  shapeCasts_S65536x768_S8x8192x768 : S65536x768.ShapeCasts S8x8192x768
  dot_S512x4096_S4096x96_S512x96_1_0_0_1_n_n_wf : DotDims.WF S512x4096 S4096x96 S512x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S8x65536.size a
  hwx0_0 : ∀ i : grid0.Coords, EltTy.bits .i32 = 32 ∨ (Rect.block (s := S8x65536) S8x512.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x16384x96.size a ≤ S8x16384x96.size a
  hwx0_1 : ∀ i : grid0.Coords, EltTy.bits .bf16 = 32 ∨ (Rect.block (s := S8x16384x96) S8x16384x96.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S65536x768.size a
  hwx0_4 : ∀ i : grid0.Coords, EltTy.bits .f32 = 32 ∨ (Rect.block (s := S65536x768) S512x768.size (cc0_transform_4 i) (hinb0_4 i)).WholeWords (EltTy.packing .f32)

variable [Facts₀]

def dot_S512x4096_S4096x96_S512x96_1_0_0_1_n_n : DotDims S512x4096 S4096x96 S512x96 where
  lhsContracting := [1]
  rhsContracting := [0]
  lhsNonContracting := [0]
  rhsNonContracting := [1]
  lhsBatch := []
  rhsBatch := []
  wf := dot_S512x4096_S4096x96_S512x96_1_0_0_1_n_n_wf

abbrev win0_0 : Pipeline.Window sig grid0 :=
  Pipeline.Window.ofSpec (Memref.whole main_v8) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8x16384x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8192 : Shape := ⟨2, ![8, 8192]⟩
abbrev S8x16384x96 : Shape := ⟨3, ![8, 16384, 96]⟩
abbrev S768 : Shape := ⟨1, ![768]⟩
abbrev S8 : Shape := ⟨1, ![8]⟩
abbrev S_ : Shape := ⟨0, ![]⟩
abbrev S1x8x8192 : Shape := ⟨3, ![1, 8, 8192]⟩
abbrev S8x1x1 : Shape := ⟨3, ![8, 1, 1]⟩
abbrev S8x8x8192 : Shape := ⟨3, ![8, 8, 8192]⟩
abbrev S8x8x8192x1 : Shape := ⟨4, ![8, 8, 8192, 1]⟩
abbrev S8x8x8192x96 : Shape := ⟨4, ![8, 8, 8192, 96]⟩
abbrev S8x8192x8x96 : Shape := ⟨4, ![8, 8192, 8, 96]⟩
abbrev S8x8192x768 : Shape := ⟨3, ![8, 8192, 768]⟩
abbrev S8x8192x1 : Shape := ⟨3, ![8, 8192, 1]⟩
abbrev S1x1x768 : Shape := ⟨3, ![1, 1, 768]⟩

abbrev nBuf : Space → Nat
  | .hbm => 75
  | .vmem => 0
  | .smem => 0
  | _ => 0

abbrev bufTy : (tb : Table) → Fin (tcTables nBuf tb) → BufTy
  | .hbm, ⟨0, _⟩ => ⟨S8x8192, .i32⟩
  | .hbm, ⟨1, _⟩ => ⟨S8x16384x96, .f32⟩
  | .hbm, ⟨2, _⟩ => ⟨S768, .f32⟩
  | .hbm, ⟨3, _⟩ => ⟨S768, .f32⟩
  | .hbm, ⟨4, _⟩ => ⟨S8, .i32⟩
  | .hbm, ⟨5, _⟩ => ⟨S_, .i32⟩
  | .hbm, ⟨6, _⟩ => ⟨S8x8192, .i32⟩
  | .hbm, ⟨7, _⟩ => ⟨S8x8192, .i32⟩
  | .hbm, ⟨8, _⟩ => ⟨S1x8x8192, .i32⟩
  | .hbm, ⟨9, _⟩ => ⟨S8x1x1, .i32⟩
  | .hbm, ⟨10, _⟩ => ⟨S8x8x8192, .i32⟩
  | .hbm, ⟨11, _⟩ => ⟨S8x8x8192, .i32⟩
  | .hbm, ⟨12, _⟩ => ⟨S8x8x8192, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S8x8x8192, .i32⟩
  | .hbm, ⟨20, _⟩ => ⟨S8x8x8192, .i32⟩
  | .hbm, ⟨21, _⟩ => ⟨S_, .i32⟩
  | .hbm, ⟨22, _⟩ => ⟨S8x8x8192, .i32⟩
  | .hbm, ⟨23, _⟩ => ⟨S8x8x8192, .i1⟩
  | .hbm, ⟨24, _⟩ => ⟨S_, .i32⟩
  | .hbm, ⟨25, _⟩ => ⟨S8x8x8192, .i32⟩
  | .hbm, ⟨26, _⟩ => ⟨S8x8x8192, .i1⟩
  | .hbm, ⟨27, _⟩ => ⟨S_, .i32⟩
  | .hbm, ⟨28, _⟩ => ⟨S_, .i1⟩
  | .hbm, ⟨29, _⟩ => ⟨S8x8x8192, .i1⟩
  | .hbm, ⟨30, _⟩ => ⟨S8x8x8192, .i1⟩
  | .hbm, ⟨31, _⟩ => ⟨S8x8x8192, .i1⟩
  | .hbm, ⟨32, _⟩ => ⟨S8x8x8192, .i32⟩
  | .hbm, ⟨33, _⟩ => ⟨S8x8x8192, .i32⟩
  | .hbm, ⟨34, _⟩ => ⟨S8x8x8192, .i32⟩
  | .hbm, ⟨35, _⟩ => ⟨S_, .i32⟩
  | .hbm, ⟨36, _⟩ => ⟨S8x8x8192, .i32⟩
  | .hbm, ⟨37, _⟩ => ⟨S8x8x8192, .i1⟩
  | .hbm, ⟨38, _⟩ => ⟨S_, .i32⟩
  | .hbm, ⟨39, _⟩ => ⟨S8x8x8192, .i32⟩
  | .hbm, ⟨40, _⟩ => ⟨S8x8x8192, .i32⟩
  | .hbm, ⟨41, _⟩ => ⟨S8x8x8192, .i32⟩
  | .hbm, ⟨42, _⟩ => ⟨S8x8x8192x1, .i32⟩
  | .hbm, ⟨43, _⟩ => ⟨S8x8x8192x96, .f32⟩
  | .hbm, ⟨44, _⟩ => ⟨S8x8192x8x96, .f32⟩
  | .hbm, ⟨45, _⟩ => ⟨S8x8192x768, .f32⟩
  | .hbm, ⟨46, _⟩ => ⟨S_, .f32⟩
  | .hbm, ⟨47, _⟩ => ⟨S8x8192, .f32⟩
  | .hbm, ⟨48, _⟩ => ⟨S8x8192x1, .f32⟩
  | .hbm, ⟨49, _⟩ => ⟨S_, .f32⟩
  | .hbm, ⟨50, _⟩ => ⟨S8x8192x1, .f32⟩
  | .hbm, ⟨51, _⟩ => ⟨S8x8192x1, .f32⟩
  | .hbm, ⟨52, _⟩ => ⟨S8x8192x768, .f32⟩
  | .hbm, ⟨53, _⟩ => ⟨S8x8192x768, .f32⟩
  | .hbm, ⟨54, _⟩ => ⟨S8x8192x768, .f32⟩
  | .hbm, ⟨55, _⟩ => ⟨S_, .f32⟩
  | .hbm, ⟨56, _⟩ => ⟨S8x8192, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x8192x768, .f32⟩
  | .hbm, ⟨62, _⟩ => ⟨S8x8192x768, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S8x8192x1, .f32⟩
  | .hbm, ⟨67, _⟩ => ⟨S8x8192x768, .f32⟩
  | .hbm, ⟨68, _⟩ => ⟨S8x8192x768, .f32⟩
  | .hbm, ⟨69, _⟩ => ⟨S1x1x768, .f32⟩
  | .hbm, ⟨70, _⟩ => ⟨S8x8192x768, .f32⟩
  | .hbm, ⟨71, _⟩ => ⟨S8x8192x768, .f32⟩
  | .hbm, ⟨72, _⟩ => ⟨S1x1x768, .f32⟩
  | .hbm, ⟨73, _⟩ => ⟨S8x8192x768, .f32⟩
  | .hbm, ⟨74, _⟩ => ⟨S8x8192x768, .f32⟩
  | _, _ => ⟨S8x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_cst_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_5 : Ref sig .tc := ⟨.hbm, 55, rfl⟩
abbrev main_v24 : Ref sig .tc := ⟨.hbm, 56, rfl⟩
abbrev main_v25 : Ref sig .tc := ⟨.hbm, 57, rfl⟩
abbrev main_cst_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_7 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩

abbrev nD : Nat := 1
abbrev τ : Topo := Topo.v7x

variable {F : FTy → Type} [FloatOps F]

class Facts₀ : Prop where
  bcast_S_S8x8192 : S_.BroadcastsInDim S8x8192 (![] : Fin 0 → Fin S8x8192.rank)
  bcast_S8x8192_S1x8x8192_1_2 : S8x8192.BroadcastsInDim S1x8x8192 (![1, 2] : Fin 2 → Fin S1x8x8192.rank)
  bcast_S8_S8x1x1_0 : S8.BroadcastsInDim S8x1x1 (![0] : Fin 1 → Fin S8x1x1.rank)
  bcast_S1x8x8192_S8x8x8192_0_1_2 : S1x8x8192.BroadcastsInDim S8x8x8192 (![0, 1, 2] : Fin 3 → Fin S8x8x8192.rank)
  bcast_S8x1x1_S8x8x8192_0_1_2 : S8x1x1.BroadcastsInDim S8x8x8192 (![0, 1, 2] : Fin 3 → Fin S8x8x8192.rank)
  bcast_S_S8x8x8192 : S_.BroadcastsInDim S8x8x8192 (![] : Fin 0 → Fin S8x8x8192.rank)
  bcast_S8x8x8192_S8x8x8192x1_0_1_2 : S8x8x8192.BroadcastsInDim S8x8x8192x1 (![0, 1, 2] : Fin 3 → Fin S8x8x8192x1.rank)
  transposes_S8x8x8192x96_S8x8192x8x96_1_2_0_3 : S8x8x8192x96.Transposes [1, 2, 0, 3] S8x8192x8x96
  shapeCasts_S8x8192x8x96_S8x8192x768 : S8x8192x8x96.ShapeCasts S8x8192x768
  reducesTo_S8x8192x768_S8x8192_d2 : S8x8192x768.ReducesTo [2] S8x8192
  h_S_ : 0 < S_.numel
  bcast_S8x8192_S8x8192x1_0_1 : S8x8192.BroadcastsInDim S8x8192x1 (![0, 1] : Fin 2 → Fin S8x8192x1.rank)
  bcast_S_S8x8192x1 : S_.BroadcastsInDim S8x8192x1 (![] : Fin 0 → Fin S8x8192x1.rank)
  bcast_S8x8192x1_S8x8192x768_0_1_2 : S8x8192x1.BroadcastsInDim S8x8192x768 (![0, 1, 2] : Fin 3 → Fin S8x8192x768.rank)
  bcast_S768_S1x1x768_2 : S768.BroadcastsInDim S1x1x768 (![2] : Fin 1 → Fin S1x1x768.rank)
  bcast_S1x1x768_S8x8192x768_0_1_2 : S1x1x768.BroadcastsInDim S8x8192x768 (![0, 1, 2] : Fin 3 → Fin S8x8192x768.rank)
  gather_S8x16384x96_S8x8x8192x1_S8x8x8192x96_3_1_0_0_1_3_1196_wf : GatherDims.WF S8x16384x96 S8x8x8192x1 S8x8x8192x96 [3] [1] [0] [1] [0] 3 ![1, 1, 96]

variable [Facts₀]

def gather_S8x16384x96_S8x8x8192x1_S8x8x8192x96_3_1_0_0_1_3_1196 : GatherDims S8x16384x96 S8x8x8192x1 S8x8x8192x96 where
  offsetDims := [3]
  collapsedSliceDims := [1]
  operandBatchingDims := [0]
  startIndicesBatchingDims := [0]
  startIndexMap := [1]
  indexVectorDim := 3
  sliceSizes := ![1, 1, 96]
  wf := gather_S8x16384x96_S8x8x8192x1_S8x8x8192x96_3_1_0_0_1_3_1196_wf

class Facts : Prop extends Facts₀ where

variable [Facts]
-- ==== Proof.Spec.lean ====
/-
  The common value of the two programs, stated once over literal shapes.

  A character id `x` and a prime `p` give the bucket `((x + 1) · p) mod 16384` in 32-bit two's-complement arithmetic,
  the remainder taken with the sign of the (positive) modulus: `hashW`. Row `(b, s)` of the embedding is the
  concatenation over the eight primes `h` of the 96 entries of table `h` at row `hashW ids[b, s] prime[h]`:
  `embAt`. The result is the layer normalisation of each such row of 768 entries — the row minus its mean,
  times the reciprocal square root of its variance plus a constant, times the scale, plus the bias: `lnRow`, `G`.
  Float literals stay as their words; nothing here evaluates one.
-/
import Idealize.ShloMosaic.PureOps.Ideal
import Idealize.ShloMosaic.PureOps.Ideal.Laws
import Idealize.ShloMosaic.Lib.ValueIdx

noncomputable section

namespace Cert.Canine

open Idealize.ShloMosaic Idealize.ShloMosaic.ValueIdx

/-- The eight multipliers. -/
def prime : Fin 8 → BitVec 32 := ![31#32, 43#32, 59#32, 61#32, 73#32, 97#32, 103#32, 113#32]

/-- The signed remainder of `y` by 16384 moved into `[0, 16384)`: the truncated remainder `r`, plus the modulus when
    `r` is negative (its sign differs from the modulus's) and not zero. -/
def modW (y : BitVec 32) : BitVec 32 :=
  Scalar.select
    (IntOp.andi
      (IntOp.cmpi .ne (IntOp.cmpi .slt (IntOp.remsi .host y 16384#32) 0#32) (IntOp.cmpi .slt (16384#32 : BitVec 32) 0#32))
      (IntOp.cmpi .ne (IntOp.remsi .host y 16384#32) 0#32))
    (IntOp.addi (IntOp.remsi .host y 16384#32) 16384#32)
    (IntOp.remsi .host y 16384#32)

/-- The bucket of id `x` under multiplier `p`. -/
def hashW (x p : BitVec 32) : BitVec 32 := modW (IntOp.muli (IntOp.addi x 1#32) p)

/-- Which of the eight tables column `q` of a row comes from, and which of its 96 columns. -/
def hOf (q : Fin 768) : Fin 8 := ⟨q.val / 96, by have := q.isLt; omega⟩
def cOf (q : Fin 768) : Fin 96 := ⟨q.val % 96, Nat.mod_lt _ (by decide)⟩

/-- The bucket as a row number of a table. -/
def bucket (x p : BitVec 32) : Fin 16384 := ⟨(hashW x p).toNat % 16384, Nat.mod_lt _ (by decide)⟩

/-- Entry `q` of the embedding row of position `(b, s)`. -/
def embAt (ids : (⟨2, ![8, 8192]⟩ : Shape).Idx → BitVec 32) (T : (⟨3, ![8, 16384, 96]⟩ : Shape).Idx → EReal)
    (b : Fin 8) (s : Fin 8192) (q : Fin 768) : EReal :=
  T (ix3 (hOf q) (bucket (ids (ix2 b s)) (prime (hOf q))) (cOf q))

/-- The two float literals of the normalisation: the row length 768 and the constant added to the variance. -/
def c768 : EReal := Ideal.ofBits .f32 0x44400000#32
def cEps : EReal := Ideal.ofBits .f32 0x358637BD#32

/-- A row's mean: its sum divided by the row length. -/
def rowMean (e : Fin 768 → EReal) : EReal := Ideal.div (∑ k : Fin 768, e k) c768

/-- A row's variance: the mean of the squared deviations from the mean. -/
def rowVar (e : Fin 768 → EReal) : EReal :=
  Ideal.div (∑ k : Fin 768, (e k - rowMean e) * (e k - rowMean e)) c768

/-- Layer normalisation of one row `e` with scale `g` and bias `β`, at column `q`. -/
def lnRow (e g β : Fin 768 → EReal) (q : Fin 768) : EReal :=
  (e q - rowMean e) * Ideal.rsqrt (rowVar e + cEps) * g q + β q

/-- The result at `(b, s, q)`. -/
def Gat (ids : (⟨2, ![8, 8192]⟩ : Shape).Idx → BitVec 32) (T : (⟨3, ![8, 16384, 96]⟩ : Shape).Idx → EReal)
    (g β : (⟨1, ![768]⟩ : Shape).Idx → EReal) (b : Fin 8) (s : Fin 8192) (q : Fin 768) : EReal :=
  lnRow (embAt ids T b s) (fun k => g (ix1 k)) (fun k => β (ix1 k)) q

/-- The whole result array. -/
def G (ids : (⟨2, ![8, 8192]⟩ : Shape).Idx → BitVec 32) (T : (⟨3, ![8, 16384, 96]⟩ : Shape).Idx → EReal)
    (g β : (⟨1, ![768]⟩ : Shape).Idx → EReal) : (⟨3, ![8, 8192, 768]⟩ : Shape).Idx → EReal :=
  fun i => Gat ids T g β (i 0) (i 1) (i 2)

theorem G_apply (ids : (⟨2, ![8, 8192]⟩ : Shape).Idx → BitVec 32) (T : (⟨3, ![8, 16384, 96]⟩ : Shape).Idx → EReal)
    (g β : (⟨1, ![768]⟩ : Shape).Idx → EReal) (b : Fin 8) (s : Fin 8192) (q : Fin 768) :
    G ids T g β (ix3 b s q) = Gat ids T g β b s q := rfl

end Cert.Canine

end
-- ==== Proof.KArr.lean ====
/-
  The call's result array [65536, 768] as one function of the four arguments: row n is position (n / 8192, n mod 8192),
  and entry (n, q) is the specification there.
-/
import proofs.«429536_j49675591745547_1_alg».proof.Proof.Spec
import Idealize.ShloMosaic.Lib.ValueIdx

noncomputable section

namespace Cert.Canine

open Idealize.ShloMosaic Idealize.ShloMosaic.ValueIdx

/-- The position of row n of the flat array. -/
def bOf (n : Fin 65536) : Fin 8 := ⟨n.val / 8192, by have := n.isLt; omega⟩
def sOf (n : Fin 65536) : Fin 8192 := ⟨n.val % 8192, Nat.mod_lt _ (by decide)⟩

/-- The flat result array. -/
def Garr (ids : (⟨2, ![8, 8192]⟩ : Shape).Idx → BitVec 32) (T : (⟨3, ![8, 16384, 96]⟩ : Shape).Idx → EReal)
    (g β : (⟨1, ![768]⟩ : Shape).Idx → EReal) : (⟨2, ![65536, 768]⟩ : Shape).Idx → EReal :=
  fun i => Gat ids T g β (bOf (i 0)) (sOf (i 0)) (i 1)

theorem Garr_apply (ids : (⟨2, ![8, 8192]⟩ : Shape).Idx → BitVec 32) (T : (⟨3, ![8, 16384, 96]⟩ : Shape).Idx → EReal)
    (g β : (⟨1, ![768]⟩ : Shape).Idx → EReal) (n : Fin 65536) (q : Fin 768) :
    Garr ids T g β (ix2 n q) = Gat ids T g β (bOf n) (sOf n) q := rfl

end Cert.Canine

end
-- ==== Proof.KClean.lean ====
/-
  The kernel body's value as one structured term. For each of the eight tables the body builds, chunk by chunk of
  4096 rows, a 0/1 matrix marking where a position's bucket equals the row number, multiplies it with the chunk, and
  adds the four products: `part`. The eight 96-column results side by side are the embedding rows `emb`; the rest is the
  layer normalisation of those rows. The generated payload functions, cut at arbitrary statement counts, compose to
  exactly this term.
-/
import proofs.«429536_j49675591745547_1_alg».proof.Proof.Gen.KernelIdeal.Frame

set_option maxRecDepth 16384

noncomputable section

namespace Cert.KernelIdeal.Hand

open Idealize.ShloMosaic Idealize.ShloMosaic.TcCoe Idealize.SL.Sem
open Cert.KernelIdeal Cert.KernelIdeal.Facts₀ Cert.KernelIdeal.Facts

variable {F : FTy → Type} [FloatOps F] [Cert.KernelIdeal.Facts]

/-- The 0/1 matrix of one chunk: entry (r, k) is 1 when position r's bucket is lo + k. -/
def oneHot (idx : IVec S512x1 32) (lo : BitVec 32) : FVec F S512x4096 .bf16 :=
  truncf .bf16
    (sitofp .f32
      (extui 32
        (cmpi .eq (broadcastTo S512x4096 idx broadcasts_S512x1_S512x4096)
          (addi (iota .tc S512x4096 32 [1] iota_S512x4096_d1_w32) (broadcast S512x4096 lo)))
        natLt_1_32))
    bitsLt_bf16_f32

/-- One chunk's product: the chunk's row of each position whose bucket falls in it, zero elsewhere. -/
def pick (idx : IVec S512x1 32) (lo : BitVec 32) (tbl : Vec F S1x4096x96 .bf16) : FVec F S512x96 .f32 :=
  matmul dot_S512x4096_S4096x96_S512x96_1_0_0_1_n_n none (oneHot idx lo)
    (shapeCast S4096x96 tbl shapeCasts_S1x4096x96_S4096x96) (constant S512x96 .f32 0x00000000#32)

/-- Table h's buckets of the block's 512 positions, as a column. -/
def idxCol (v0 : Vec F S8x512 .i32) (h : Nat) (hs : S8x512.Slices ![h, 0] S1x512) : IVec S512x1 32 :=
  shapeCast S512x1
    (shapeCast S512 (extractStridedSlice S1x512 ![h, 0] (shapeCast S8x512 v0 shapeCasts_S8x512_S8x512) hs) shapeCasts_S1x512_S512)
    shapeCasts_S512_S512x1

/-- One table's 96 columns of the embedding rows: zero plus the four chunk products. -/
def part (idx : IVec S512x1 32) (t0 t1 t2 t3 : Vec F S1x4096x96 .bf16) : FVec F S512x96 .f32 :=
  addf (addf (addf (addf (broadcast S512x96 (Scalar.ofBits .f32 0x00000000#32)) (pick idx 0#32 t0)) (pick idx 4096#32 t1))
    (pick idx 8192#32 t2)) (pick idx 12288#32 t3)

/-- The block's embedding rows. -/
def emb (x0 : Vec F S8x512 .i32) (x1 : Vec F S8x16384x96 .bf16) : FVec F S512x768 .f32 :=
  concatenate S512x768 1
    [⟨S512x96, part (idxCol (View.ld x0 Gen.r0_0) 0 slices_S8x512_o0_0_S1x512) (View.ld x1 Gen.r0_1) (View.ld x1 Gen.r0_2) (View.ld x1 Gen.r0_3) (View.ld x1 Gen.r0_4)⟩,
     ⟨S512x96, part (idxCol (View.ld x0 Gen.r0_0) 1 slices_S8x512_o1_0_S1x512) (View.ld x1 Gen.r0_5) (View.ld x1 Gen.r0_6) (View.ld x1 Gen.r0_7) (View.ld x1 Gen.r0_8)⟩,
     ⟨S512x96, part (idxCol (View.ld x0 Gen.r0_0) 2 slices_S8x512_o2_0_S1x512) (View.ld x1 Gen.r0_9) (View.ld x1 Gen.r0_10) (View.ld x1 Gen.r0_11) (View.ld x1 Gen.r0_12)⟩,
     ⟨S512x96, part (idxCol (View.ld x0 Gen.r0_0) 3 slices_S8x512_o3_0_S1x512) (View.ld x1 Gen.r0_13) (View.ld x1 Gen.r0_14) (View.ld x1 Gen.r0_15) (View.ld x1 Gen.r0_16)⟩,
     ⟨S512x96, part (idxCol (View.ld x0 Gen.r0_0) 4 slices_S8x512_o4_0_S1x512) (View.ld x1 Gen.r0_17) (View.ld x1 Gen.r0_18) (View.ld x1 Gen.r0_19) (View.ld x1 Gen.r0_20)⟩,
     ⟨S512x96, part (idxCol (View.ld x0 Gen.r0_0) 5 slices_S8x512_o5_0_S1x512) (View.ld x1 Gen.r0_21) (View.ld x1 Gen.r0_22) (View.ld x1 Gen.r0_23) (View.ld x1 Gen.r0_24)⟩,
     ⟨S512x96, part (idxCol (View.ld x0 Gen.r0_0) 6 slices_S8x512_o6_0_S1x512) (View.ld x1 Gen.r0_25) (View.ld x1 Gen.r0_26) (View.ld x1 Gen.r0_27) (View.ld x1 Gen.r0_28)⟩,
     ⟨S512x96, part (idxCol (View.ld x0 Gen.r0_0) 7 slices_S8x512_o7_0_S1x512) (View.ld x1 Gen.r0_29) (View.ld x1 Gen.r0_30) (View.ld x1 Gen.r0_31) (View.ld x1 Gen.r0_32)⟩]
    concatenates_S512x96_S512x96_S512x96_S512x96_S512x96_S512x96_S512x96_S512x96_S512x768_d1

/-- The rows' means, as a column. -/
def meanCol (e : FVec F S512x768 .f32) : FVec F S512x1 .f32 :=
  divf (shapeCast S512x1 (multiReduction .add [1] S512 e 0x00000000#32 reduces_S512x768_S512 (.inl rfl) rfl) shapeCasts_S512_S512x1)
    (broadcast S512x1 (Scalar.ofBits .f32 0x44400000#32))

/-- The squared deviations from the mean. -/
def sqDev (e : FVec F S512x768 .f32) : FVec F S512x768 .f32 :=
  mulf (subf e (broadcastTo S512x768 (meanCol e) broadcasts_S512x1_S512x768))
    (subf e (broadcastTo S512x768 (meanCol e) broadcasts_S512x1_S512x768))

/-- What the body stores: the normalised rows. -/
def body (x0 : Vec F S8x512 .i32) (x1 : Vec F S8x16384x96 .bf16) (x2 x3 : Vec F S768 .f32) : FVec F S512x768 .f32 :=
  Gen.k0_pay1 (emb x0 x1) (meanCol (emb x0 x1)) (sqDev (emb x0 x1)) (View.ld x2 Gen.r0_33) (View.ld x3 Gen.r0_33)

set_option maxHeartbeats 1000000 in
/-- The generated payloads compose to that term. -/
theorem out0_4_eq (x0 : Vec F S8x512 .i32) (x1 : Vec F S8x16384x96 .bf16) (x2 x3 : Vec F S768 .f32) :
    Gen.out0_4 x0 x1 x2 x3 = View.canon [⟨Gen.r0_34, body x0 x1 x2 x3⟩] := rfl

end Cert.KernelIdeal.Hand

end
-- ==== Proof.LibMatmulPlain.lean ====
/-
  A plain matrix product, read at an index.

  For dimension numbers that contract the left operand's axis 1 with the right operand's axis 0, keep the left operand's
  axis 0 and the right operand's axis 1, and have no batch axis, the product of `l : [M, K]` and `r : [K, N]` into a zero
  accumulator is, at `(p, q)`, the sum over `k < K` of `l (p, k) · r (k, q)` on the extended reals. The contraction
  index set has one axis of extent `K`; the sum over it is re-indexed by its one coordinate.
-/
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

/-- The contraction index set has one axis. -/
theorem contr_rank (hlc : d.lhsContracting = [1]) : d.contr.rank = 1 := by
  rw [d.rank_contr, hlc]; rfl

/-- Its extent is the contracted extent `K`. -/
theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

/-- The left operand's row coordinate is the result's row. -/
theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

/-- The left operand's column coordinate is the contraction position. -/
theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row coordinate is the contraction position. -/
theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

/-- The right operand's column coordinate is the result's column. -/
theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- THE PRODUCT AT `(p, q)`: the sum over the contracted coordinate of the operands' products. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.LibColumn.lean ====
/-
  A column vector made from a vector, and broadcast along rows, read at an index.

  A vector `x : [a]` cast to the column `[a, 1]` reads, at `(i, u)`, `x i`; a column `v : [a, 1]` broadcast to `[a, b]`
  reads, at `(p, c)`, the column's entry of row `p`. Together: a per-row quantity (a row's maximum, a row's sum) kept as a
  column and subtracted from or divided into every entry of its row.
-/
import Idealize.ShloMosaic.Lib.Pipeline.Value
import Idealize.ShloMosaic.Lib.ValueIdx
import Idealize.ShloMosaic.Lib.ValueLayout

noncomputable section

namespace Cert.Lib.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and broadcast along the rows reads, at `(p, c)`, the vector at `p`. -/
theorem broadcastTo_column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.Lib.Column

end
-- ==== Proof.KPick.lean ====
/-
  One table's part of the embedding rows, read at an entry.

  Entry (r, k) of a chunk's 0/1 matrix is 1 exactly when position r's bucket is the chunk's first row number plus k,
  so the product with the chunk is, at (r, c), the chunk's entry (bucket − first row, c) when the bucket lies in the
  chunk and 0 otherwise: a sum over k of which at most one term is not zero. The four chunks tile the 16384 rows, so
  zero plus the four products is the table's entry (bucket, c), for every bucket below 16384. On the extended reals
  this needs only 0 · x = 0, 1 · x = x and 0 + x = x; no entry need be finite.
-/
import proofs.«429536_j49675591745547_1_alg».proof.Proof.KClean
import proofs.«429536_j49675591745547_1_alg».proof.Proof.LibMatmulPlain
import proofs.«429536_j49675591745547_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Facts₀ Cert.KernelIdeal.Facts

variable [Cert.KernelIdeal.Facts]

/-- An entry of the 0/1 matrix. -/
theorem oneHot_apply (idx : IVec S512x1 32) (lo : BitVec 32) (r : Fin 512) (k : Fin 4096) :
    oneHot (F := Ideal) idx lo (ix2 r k)
      = if idx (ix2 r (0 : Fin 1)) = BitVec.ofNat 32 k.val + lo then (1 : EReal) else 0 := by
  have e1 : broadcastTo S512x4096 idx broadcasts_S512x1_S512x4096 (ix2 r k) = idx (ix2 r (0 : Fin 1)) :=
    Cert.Lib.Column.broadcastTo_a1_ab_apply idx _ r k
  have e2 : iota .tc S512x4096 32 [1] iota_S512x4096_d1_w32 (ix2 r k) = BitVec.ofNat 32 k.val :=
    iota_single_apply .tc S512x4096 32 1 iota_S512x4096_d1_w32 (ix2 r k)
  show ((((IntOp.cmpi .eq (broadcastTo S512x4096 idx broadcasts_S512x1_S512x4096 (ix2 r k))
      (IntOp.addi (iota .tc S512x4096 32 [1] iota_S512x4096_d1_w32 (ix2 r k)) lo)).setWidth 32).toInt : ℝ) : EReal) = _
  rw [e1, e2]
  by_cases h : idx (ix2 r (0 : Fin 1)) = BitVec.ofNat 32 k.val + lo
  · rw [if_pos h]
    have hc : IntOp.cmpi .eq (idx (ix2 r (0 : Fin 1))) (IntOp.addi (BitVec.ofNat 32 k.val) lo) = 1#1 := by
      show BitVec.ofBool (idx (ix2 r (0 : Fin 1)) == BitVec.ofNat 32 k.val + lo) = 1#1
      rw [beq_iff_eq.mpr h]; rfl
    have e : ((1#1 : BitVec 1).setWidth 32).toInt = 1 := by decide
    rw [hc, e, Int.cast_one, EReal.coe_one]
  · rw [if_neg h]
    have hc : IntOp.cmpi .eq (idx (ix2 r (0 : Fin 1))) (IntOp.addi (BitVec.ofNat 32 k.val) lo) = 0#1 := by
      show BitVec.ofBool (idx (ix2 r (0 : Fin 1)) == BitVec.ofNat 32 k.val + lo) = 0#1
      rw [beq_eq_false_iff_ne.mpr h]; rfl
    have e : ((0#1 : BitVec 1).setWidth 32).toInt = 0 := by decide
    rw [hc, e, Int.cast_zero, EReal.coe_zero]

/-- The word equation of the 0/1 matrix as an equation of numbers, for a bucket below 16384 and a chunk inside the table. -/
theorem word_eq_iff (w : BitVec 32) (v L : Nat) (hv : w.toNat = v) (k : Fin 4096) (hL : L + 4096 ≤ 16384) :
    w = BitVec.ofNat 32 k.val + BitVec.ofNat 32 L ↔ v = k.val + L := by
  have hk := k.isLt
  constructor
  · intro h
    rw [← hv, h, BitVec.toNat_add, BitVec.toNat_ofNat, BitVec.toNat_ofNat]
    omega
  · intro h
    apply BitVec.eq_of_toNat_eq
    rw [hv, h, BitVec.toNat_add, BitVec.toNat_ofNat, BitVec.toNat_ofNat]
    omega

/-- A sum over a chunk's rows with the 0/1 weights: the one row the bucket names, if it is in the chunk. -/
theorem sum_oneHot (w : BitVec 32) (v L : Nat) (hv : w.toNat = v) (hL : L + 4096 ≤ 16384) (t : Fin 4096 → EReal) :
    ∑ k : Fin 4096, (if w = BitVec.ofNat 32 k.val + BitVec.ofNat 32 L then (1 : EReal) else 0) * t k
      = if h : L ≤ v ∧ v < L + 4096 then t ⟨v - L, by omega⟩ else 0 := by
  by_cases hin : L ≤ v ∧ v < L + 4096
  · rw [dif_pos hin]
    rw [Finset.sum_eq_single (⟨v - L, by omega⟩ : Fin 4096)]
    · rw [if_pos ((word_eq_iff w v L hv _ hL).2 (by show v = (v - L) + L; omega)), one_mul]
    · intro k _ hne
      rw [if_neg, zero_mul]
      intro h
      have := (word_eq_iff w v L hv k hL).1 h
      exact hne (Fin.ext (by show k.val = v - L; omega))
    · intro h; exact absurd (Finset.mem_univ _) h
  · rw [dif_neg hin]
    refine Finset.sum_eq_zero fun k _ => ?_
    rw [if_neg, zero_mul]
    intro h
    have := (word_eq_iff w v L hv k hL).1 h
    have := k.isLt
    exact hin ⟨by omega, by omega⟩

/-- One chunk's product at (r, c). -/
theorem pick_apply (idx : IVec S512x1 32) (lo : BitVec 32) (tbl : Vec Ideal S1x4096x96 .bf16) (r : Fin 512) (c : Fin 96) :
    pick (F := Ideal) idx lo tbl (ix2 r c)
      = ∑ k : Fin 4096, (if idx (ix2 r (0 : Fin 1)) = BitVec.ofNat 32 k.val + lo then (1 : EReal) else 0)
          * tbl (ix3 (0 : Fin 1) k c) := by
  unfold pick
  refine (Cert.Lib.MatmulPlain.matmul_zero_apply dot_S512x4096_S4096x96_S512x96_1_0_0_1_n_n rfl rfl rfl rfl rfl rfl none
    (oneHot (F := Ideal) idx lo) (shapeCast S4096x96 tbl shapeCasts_S1x4096x96_S4096x96) r c).trans ?_
  refine Finset.sum_congr rfl fun k _ => ?_
  rw [oneHot_apply, shapeCast_1ab_ab_apply]

/-- One table's part at (r, c): the table's entry at the bucket, the chunks read through one function `T` of the row. -/
theorem part_apply (idx : IVec S512x1 32) (t0 t1 t2 t3 : Vec Ideal S1x4096x96 .bf16) (r : Fin 512) (c : Fin 96)
    (v : Nat) (hv : (idx (ix2 r (0 : Fin 1))).toNat = v) (hlt : v < 16384) (T : Fin 16384 → EReal)
    (h0 : ∀ k : Fin 4096, t0 (ix3 (0 : Fin 1) k c) = T ⟨k.val, by have := k.isLt; omega⟩)
    (h1 : ∀ k : Fin 4096, t1 (ix3 (0 : Fin 1) k c) = T ⟨4096 + k.val, by have := k.isLt; omega⟩)
    (h2 : ∀ k : Fin 4096, t2 (ix3 (0 : Fin 1) k c) = T ⟨8192 + k.val, by have := k.isLt; omega⟩)
    (h3 : ∀ k : Fin 4096, t3 (ix3 (0 : Fin 1) k c) = T ⟨12288 + k.val, by have := k.isLt; omega⟩) :
    part (F := Ideal) idx t0 t1 t2 t3 (ix2 r c) = T ⟨v, hlt⟩ := by
  unfold part
  rw [addf_apply, addf_apply, addf_apply, addf_apply, broadcast_apply, pick_apply, pick_apply, pick_apply, pick_apply]
  have z : (Scalar.ofBits (F := Ideal) .f32 0x00000000#32 : EReal) = 0 := Ideal.ofBits_zero_f32
  rw [z, zero_add]
  have s0 := sum_oneHot (idx (ix2 r (0 : Fin 1))) v 0 hv (by omega) (fun k => t0 (ix3 (0 : Fin 1) k c))
  have s1 := sum_oneHot (idx (ix2 r (0 : Fin 1))) v 4096 hv (by omega) (fun k => t1 (ix3 (0 : Fin 1) k c))
  have s2 := sum_oneHot (idx (ix2 r (0 : Fin 1))) v 8192 hv (by omega) (fun k => t2 (ix3 (0 : Fin 1) k c))
  have s3 := sum_oneHot (idx (ix2 r (0 : Fin 1))) v 12288 hv (by omega) (fun k => t3 (ix3 (0 : Fin 1) k c))
  rw [show (0#32 : BitVec 32) = BitVec.ofNat 32 0 from rfl, show (4096#32 : BitVec 32) = BitVec.ofNat 32 4096 from rfl,
    show (8192#32 : BitVec 32) = BitVec.ofNat 32 8192 from rfl, show (12288#32 : BitVec 32) = BitVec.ofNat 32 12288 from rfl,
    s0, s1, s2, s3]
  by_cases c0 : v < 4096
  · rw [dif_pos ⟨by omega, by omega⟩, dif_neg (by omega), dif_neg (by omega), dif_neg (by omega), add_zero, add_zero, add_zero, h0]
    exact congrArg T (Fin.ext (by show v - 0 = v; omega))
  · by_cases c1 : v < 8192
    · rw [dif_neg (by omega), dif_pos ⟨by omega, by omega⟩, dif_neg (by omega), dif_neg (by omega), zero_add, add_zero, add_zero, h1]
      exact congrArg T (Fin.ext (by show 4096 + (v - 4096) = v; omega))
    · by_cases c2 : v < 12288
      · rw [dif_neg (by omega), dif_neg (by omega), dif_pos ⟨by omega, by omega⟩, dif_neg (by omega), zero_add, zero_add, add_zero, h2]
        exact congrArg T (Fin.ext (by show 8192 + (v - 8192) = v; omega))
      · rw [dif_neg (by omega), dif_neg (by omega), dif_neg (by omega), dif_pos ⟨by omega, by omega⟩, zero_add, zero_add, zero_add, h3]
        exact congrArg T (Fin.ext (by show 12288 + (v - 12288) = v; omega))

end Cert.KernelIdeal.Hand

end
-- ==== Proof.KEmb.lean ====
/-
  The block's embedding rows, read at an entry.

  Column q of the block lies in the piece of table q / 96, at that piece's column q mod 96. That piece is the table's
  part: at row r it is the table's entry at position r's bucket (read from row q / 96 of the bucket block) and column
  q mod 96, because the four loaded chunks are rows 0–4095, 4096–8191, 8192–12287 and 12288–16383 of that table.
-/
import proofs.«429536_j49675591745547_1_alg».proof.Proof.KClean
import proofs.«429536_j49675591745547_1_alg».proof.Proof.KPick
import proofs.«429536_j49675591745547_1_alg».proof.Proof.Spec
import proofs.«429536_j49675591745547_1_alg».proof.Proof.LibColumn
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.ValueIdx
open Cert.KernelIdeal Cert.KernelIdeal.Facts₀ Cert.KernelIdeal.Facts
open Cert.Canine (hOf cOf)

variable [Cert.KernelIdeal.Facts]

/-- The load of the whole bucket block is the block. -/
theorem ld_x0 (x0 : Vec Ideal S8x512 .i32) : View.ld x0 Gen.r0_0 = x0 :=
  View.ld_unit_zero (S := S8x512) (funext fun a => by match a with | ⟨0, _⟩ => rfl | ⟨1, _⟩ => rfl) _ x0

/-- Table h's bucket column at row r is the bucket block's entry (h, r). -/
theorem idxCol_apply (y : Vec Ideal S8x512 .i32) (h : Nat) (hs : S8x512.Slices ![h, 0] S1x512) (hh : h < 8)
    (r : Fin 512) (u : Fin 1) : idxCol y h hs (ix2 r u) = y (ix2 (⟨h, hh⟩ : Fin 8) r) := by
  unfold idxCol
  rw [Cert.Lib.Column.shapeCast_a_a1_apply, shapeCast_1a_a_apply, shapeCast_self]
  exact slice2_axis0_apply h y hs (0 : Fin 1) r ⟨h, hh⟩ (by show h = h + 0; omega)

/-- A loaded chunk of table h starting at row off: its entry (0, k, c) is the table's entry (h, off + k, c). -/
theorem ld_chunk (x1 : Vec Ideal S8x16384x96 .bf16) (h off : Nat)
    (inb : ∀ a, (![h, off, 0] : Fin 3 → Nat) a + S1x4096x96.size a ≤ S8x16384x96.size a) (hh : h < 8)
    (k : Fin 4096) (c : Fin 96) (row : Fin 16384) (hrow : row.val = off + k.val) :
    View.ld x1 (Rect.unit (s := S8x16384x96) ![h, off, 0] S1x4096x96.size inb) (ix3 (0 : Fin 1) k c)
      = x1 (ix3 (⟨h, hh⟩ : Fin 8) row c) := by
  show x1 _ = x1 _
  congr 1
  funext a
  apply Fin.ext
  match a with
  | ⟨0, _⟩ => show h + 1 * 0 = h; omega
  | ⟨1, _⟩ => show off + 1 * k.val = row.val; omega
  | ⟨2, _⟩ => show 0 + 1 * c.val = c.val; omega

/-- Table h's part of the rows at (r, c): the table's entry at the bucket of position r. -/
theorem partH_apply (x0 : Vec Ideal S8x512 .i32) (x1 : Vec Ideal S8x16384x96 .bf16)
    (hx0 : ∀ (h : Fin 8) (r : Fin 512), (x0 (ix2 h r)).toNat < 16384)
    (h : Nat) (hh : h < 8) (hs : S8x512.Slices ![h, 0] S1x512)
    (i0 : ∀ a, (![h, 0, 0] : Fin 3 → Nat) a + S1x4096x96.size a ≤ S8x16384x96.size a)
    (i1 : ∀ a, (![h, 4096, 0] : Fin 3 → Nat) a + S1x4096x96.size a ≤ S8x16384x96.size a)
    (i2 : ∀ a, (![h, 8192, 0] : Fin 3 → Nat) a + S1x4096x96.size a ≤ S8x16384x96.size a)
    (i3 : ∀ a, (![h, 12288, 0] : Fin 3 → Nat) a + S1x4096x96.size a ≤ S8x16384x96.size a)
    (r : Fin 512) (c : Fin 96) :
    part (idxCol (View.ld x0 Gen.r0_0) h hs)
        (View.ld x1 (Rect.unit (s := S8x16384x96) ![h, 0, 0] S1x4096x96.size i0))
        (View.ld x1 (Rect.unit (s := S8x16384x96) ![h, 4096, 0] S1x4096x96.size i1))
        (View.ld x1 (Rect.unit (s := S8x16384x96) ![h, 8192, 0] S1x4096x96.size i2))
        (View.ld x1 (Rect.unit (s := S8x16384x96) ![h, 12288, 0] S1x4096x96.size i3)) (ix2 r c)
      = x1 (ix3 (⟨h, hh⟩ : Fin 8) (⟨(x0 (ix2 (⟨h, hh⟩ : Fin 8) r)).toNat, hx0 _ _⟩ : Fin 16384) c) := by
  refine part_apply _ _ _ _ _ r c _ ?_ (hx0 ⟨h, hh⟩ r) (fun row => x1 (ix3 (⟨h, hh⟩ : Fin 8) row c)) ?_ ?_ ?_ ?_
  · rw [idxCol_apply _ h hs hh, ld_x0]
  · intro k; exact ld_chunk x1 h 0 i0 hh k c _ (by show k.val = 0 + k.val; omega)
  · intro k; exact ld_chunk x1 h 4096 i1 hh k c _ rfl
  · intro k; exact ld_chunk x1 h 8192 i2 hh k c _ rfl
  · intro k; exact ld_chunk x1 h 12288 i3 hh k c _ rfl

/-- Eight 96-column pieces side by side, read at (r, q): piece q / 96 at column q mod 96. -/
theorem cat8_apply (P : Fin 8 → (S512x96.Idx → EReal))
    (hc : Shape.Concatenates (([⟨S512x96, P 0⟩, ⟨S512x96, P 1⟩, ⟨S512x96, P 2⟩, ⟨S512x96, P 3⟩, ⟨S512x96, P 4⟩,
      ⟨S512x96, P 5⟩, ⟨S512x96, P 6⟩, ⟨S512x96, P 7⟩] : List ((s : Shape) × (s.Idx → EReal))).map (·.1)) S512x768 1)
    (r : Fin 512) (q : Fin 768) :
    concatenate S512x768 1 [⟨S512x96, P 0⟩, ⟨S512x96, P 1⟩, ⟨S512x96, P 2⟩, ⟨S512x96, P 3⟩, ⟨S512x96, P 4⟩,
      ⟨S512x96, P 5⟩, ⟨S512x96, P 6⟩, ⟨S512x96, P 7⟩] hc (ix2 r q) = P (hOf q) (ix2 r (cOf q)) := by
  refine concatenate_ofFn_apply (t := S512x768) (s₁ := S512x96) (1 : Fin 2) (N := 8) P hc rfl 96 rfl (ix2 r q) (hOf q) rfl
    (ix2 r (cOf q)) rfl fun b hb => ?_
  match b with
  | ⟨0, _⟩ => rfl
  | ⟨1, _⟩ => exact absurd rfl hb

end Cert.KernelIdeal.Hand

end
-- ==== Proof.LibLaneSums.lean ====
/-
  Sums over the last axis, and a value kept along a new last axis, read at an index.

  On the extended reals a `vector.multi_reduction <add>` over the last axis of a rank-2 array `[a, b]` reads, at row `r`,
  the sum over `k` of the entries `(r, k)`; over the last axis of a rank-3 array `[a, b, c]` it reads, at `(p, q)`, the sum
  over `k` of the entries `(p, q, k)`. A rank-2 array `[a, b]` cast to `[a, b, 1]` and broadcast to `[a, b, c]` reads, at
  `(p, q, k)`, the array at `(p, q)`: a per-position quantity applied to every entry of the last axis.
-/
import Idealize.ShloMosaic.PureOps.Ideal.Laws
import Idealize.ShloMosaic.Lib.Pipeline.Value
import Idealize.ShloMosaic.Lib.ValueIdx

noncomputable section

namespace Cert.Lib.LaneSums

open Idealize.ShloMosaic Idealize.ShloMosaic.ValueIdx

/-- The sum over the columns of a rank-2 array, at row `r`. -/
theorem sum_axis1_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v _ h hφ hacc (ix1 r)).trans ?_
  refine Finset.sum_congr rfl fun k _ => congrArg v ?_
  funext c
  apply Fin.ext
  match c with
  | ⟨0, _⟩ => rfl
  | ⟨1, _⟩ => rfl

/-- The sum over the last axis of a rank-3 array, at `(p, q)`. -/
theorem sum_axis2_apply {a b c : ℕ} (v : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ v 0x00000000#32 h hφ hacc (ix2 p q) = ∑ k : Fin c, v (ix3 p q k) := by
  refine (Ideal.multiReduction_add_single v _ h hφ hacc (ix2 p q)).trans ?_
  refine Finset.sum_congr rfl fun k _ => congrArg v ?_
  funext d
  apply Fin.ext
  match d with
  | ⟨0, _⟩ => rfl
  | ⟨1, _⟩ => rfl
  | ⟨2, _⟩ => rfl

variable {α : Type}

/-- An `[a, b]` array cast to `[a, b, 1]` and broadcast to `[a, b, c]` reads, at `(p, q, k)`, the array at `(p, q)`. -/
theorem broadcastTo_lastAxis_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h) h' (ix3 p q k) = x (ix2 p q) := by
  refine (broadcastTo_apply _ h' (ix3 p q k) (ix3 p q (0 : Fin 1)) fun ax => ?_).trans ?_
  · match ax with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => rfl
  · refine shapeCast_apply x h _ _ ?_
    rw [Shape.rowMajor_val_two, Shape.rowMajor_val_three]
    show p.val * b + q.val = (p.val * b + q.val) * 1 + 0
    omega

end Cert.Lib.LaneSums

end
-- ==== Proof.KNorm.lean ====
/-
  The normalisation of the block's rows, read at an entry.

  The mean of row r is the sum of its 768 entries divided by 768, kept as a column and subtracted from every entry of
  the row; the variance is the mean of the squared differences; the stored entry (r, q) is the difference times the
  reciprocal square root of the variance plus a constant, times the scale's entry q, plus the bias's entry q:
  the specification's row normalisation of row r.
-/
import proofs.«429536_j49675591745547_1_alg».proof.Proof.KClean
import proofs.«429536_j49675591745547_1_alg».proof.Proof.Spec
import proofs.«429536_j49675591745547_1_alg».proof.Proof.LibLaneSums
import proofs.«429536_j49675591745547_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Facts₀ Cert.KernelIdeal.Facts

variable [Cert.KernelIdeal.Facts]

/-- The sum of row r of a block. -/
theorem rowSum_apply (v : FVec Ideal S512x768 .f32) (hacc : (0x00000000#32 : BitVec 32) = 0x00000000#32) (r : Fin 512) :
    multiReduction .add [1] S512 v 0x00000000#32 reduces_S512x768_S512 (.inl rfl) hacc (ix1 r) = ∑ k : Fin 768, v (ix2 r k) :=
  Cert.Lib.LaneSums.sum_axis1_apply v reduces_S512x768_S512 (.inl rfl) hacc r

/-- The column of means at row r is the mean of row r. -/
theorem meanCol_apply (e : FVec Ideal S512x768 .f32) (r : Fin 512) (u : Fin 1) :
    meanCol e (ix2 r u) = Cert.Canine.rowMean (fun k => e (ix2 r k)) := by
  unfold meanCol
  rw [divf_apply, broadcast_apply, Cert.Lib.Column.shapeCast_a_a1_apply, rowSum_apply]
  rfl

/-- The squared deviation at (r, q). -/
theorem sqDev_apply (e : FVec Ideal S512x768 .f32) (r : Fin 512) (q : Fin 768) :
    sqDev e (ix2 r q)
      = (e (ix2 r q) - Cert.Canine.rowMean (fun k => e (ix2 r k))) * (e (ix2 r q) - Cert.Canine.rowMean (fun k => e (ix2 r k))) := by
  unfold sqDev
  rw [mulf_apply, subf_apply, Cert.Lib.Column.broadcastTo_a1_ab_apply, meanCol_apply]

/-- The stored entry (r, q) is the normalisation of row r at q. -/
theorem pay1_apply (e : FVec Ideal S512x768 .f32) (x2 x3 : Vec Ideal S768 .f32) (r : Fin 512) (q : Fin 768) :
    Gen.k0_pay1 e (meanCol e) (sqDev e) x2 x3 (ix2 r q)
      = Cert.Canine.lnRow (fun k => e (ix2 r k)) (fun k => x2 (ix1 k)) (fun k => x3 (ix1 k)) q := by
  unfold Gen.k0_pay1
  dsimp only
  rw [addf_apply, mulf_apply, mulf_apply, subf_apply]
  rw [Cert.Lib.Column.broadcastTo_a1_ab_apply (meanCol e), meanCol_apply]
  rw [Cert.Lib.Column.broadcastTo_a1_ab_apply]
  rw [broadcastTo_1b_ab_apply, broadcastTo_1b_ab_apply, shapeCast_a_1a_apply, shapeCast_a_1a_apply]
  show (e (ix2 r q) - Cert.Canine.rowMean (fun k => e (ix2 r k)))
      * Ideal.rsqrt (Ideal.div (shapeCast S512x1 (multiReduction .add [1] S512 (sqDev e) 0x00000000#32 reduces_S512x768_S512 (.inl rfl) rfl)
            shapeCasts_S512_S512x1 (ix2 r (0 : Fin 1))) (Ideal.ofBits .f32 0x44400000#32) + Ideal.ofBits .f32 0x358637BD#32)
      * x2 (ix1 q) + x3 (ix1 q) = _
  rw [Cert.Lib.Column.shapeCast_a_a1_apply, rowSum_apply]
  simp only [sqDev_apply]
  rfl

end Cert.KernelIdeal.Hand

end
-- ==== Proof.KBody.lean ====
/-
  The kernel body's stored block, read at an entry: for buckets below 16384, entry (r, q) of the block is the
  specification's row normalisation, at q, of the row whose entry k is table (k / 96)'s entry at position r's bucket
  for that table and column k mod 96.
-/
import proofs.«429536_j49675591745547_1_alg».proof.Proof.KClean
import proofs.«429536_j49675591745547_1_alg».proof.Proof.KEmb
import proofs.«429536_j49675591745547_1_alg».proof.Proof.KNorm
import proofs.«429536_j49675591745547_1_alg».proof.Proof.Spec
import Idealize.ShloMosaic.Lib.Pipeline.Value
import Idealize.ShloMosaic.Lib.ValueIdx

noncomputable section

namespace Cert.KernelIdeal.Hand

open Idealize.ShloMosaic Idealize.ShloMosaic.ValueIdx
open Cert.KernelIdeal Cert.KernelIdeal.Facts₀ Cert.KernelIdeal.Facts
open Cert.Canine (hOf cOf)

variable [Cert.KernelIdeal.Facts]

/-- Row h of the bucket block can be cut out, for each of the eight tables. -/
theorem slicesAll (h : Fin 8) : S8x512.Slices ![h.val, 0] S1x512 := by
  match h with
  | ⟨0, _⟩ => exact slices_S8x512_o0_0_S1x512
  | ⟨1, _⟩ => exact slices_S8x512_o1_0_S1x512
  | ⟨2, _⟩ => exact slices_S8x512_o2_0_S1x512
  | ⟨3, _⟩ => exact slices_S8x512_o3_0_S1x512
  | ⟨4, _⟩ => exact slices_S8x512_o4_0_S1x512
  | ⟨5, _⟩ => exact slices_S8x512_o5_0_S1x512
  | ⟨6, _⟩ => exact slices_S8x512_o6_0_S1x512
  | ⟨7, _⟩ => exact slices_S8x512_o7_0_S1x512

/-- A chunk of 4096 rows of table h lies inside the table. -/
theorem chunkInb (h : Fin 8) (off : Nat) (ho : off + 4096 ≤ 16384) :
    ∀ a, (![h.val, off, 0] : Fin 3 → Nat) a + S1x4096x96.size a ≤ S8x16384x96.size a := by
  intro a
  have := h.isLt
  match a with
  | ⟨0, _⟩ => show h.val + 1 ≤ 8; omega
  | ⟨1, _⟩ => show off + 4096 ≤ 16384; omega
  | ⟨2, _⟩ => show 0 + 96 ≤ 96; omega

/-- Table h's 96 columns of the block's rows. -/
def partOf (x0 : Vec Ideal S8x512 .i32) (x1 : Vec Ideal S8x16384x96 .bf16) (h : Fin 8) : FVec Ideal S512x96 .f32 :=
  part (idxCol (View.ld x0 Gen.r0_0) h.val (slicesAll h))
    (View.ld x1 (Rect.unit (s := S8x16384x96) ![h.val, 0, 0] S1x4096x96.size (chunkInb h 0 (by omega))))
    (View.ld x1 (Rect.unit (s := S8x16384x96) ![h.val, 4096, 0] S1x4096x96.size (chunkInb h 4096 (by omega))))
    (View.ld x1 (Rect.unit (s := S8x16384x96) ![h.val, 8192, 0] S1x4096x96.size (chunkInb h 8192 (by omega))))
    (View.ld x1 (Rect.unit (s := S8x16384x96) ![h.val, 12288, 0] S1x4096x96.size (chunkInb h 12288 (by omega))))

/-- The rows are the eight tables' parts side by side. -/
theorem emb_eq (x0 : Vec Ideal S8x512 .i32) (x1 : Vec Ideal S8x16384x96 .bf16) :
    emb x0 x1 = concatenate S512x768 1
      [⟨S512x96, partOf x0 x1 0⟩, ⟨S512x96, partOf x0 x1 1⟩, ⟨S512x96, partOf x0 x1 2⟩, ⟨S512x96, partOf x0 x1 3⟩,
       ⟨S512x96, partOf x0 x1 4⟩, ⟨S512x96, partOf x0 x1 5⟩, ⟨S512x96, partOf x0 x1 6⟩, ⟨S512x96, partOf x0 x1 7⟩]
      concatenates_S512x96_S512x96_S512x96_S512x96_S512x96_S512x96_S512x96_S512x96_S512x768_d1 := rfl

/-- Entry (r, q) of the rows: table q / 96 at position r's bucket, column q mod 96. -/
theorem emb_apply (x0 : Vec Ideal S8x512 .i32) (x1 : Vec Ideal S8x16384x96 .bf16)
    (hx0 : ∀ (h : Fin 8) (r : Fin 512), (x0 (ix2 h r)).toNat < 16384) (r : Fin 512) (q : Fin 768) :
    emb x0 x1 (ix2 r q)
      = x1 (ix3 (hOf q) (⟨(x0 (ix2 (hOf q) r)).toNat, hx0 _ _⟩ : Fin 16384) (cOf q)) := by
  rw [emb_eq, cat8_apply (partOf x0 x1) _ r q]
  exact partH_apply x0 x1 hx0 (hOf q).val (hOf q).isLt _ _ _ _ _ r (cOf q)

theorem body_apply (x0 : Vec Ideal S8x512 .i32) (x1 : Vec Ideal S8x16384x96 .bf16) (x2 x3 : Vec Ideal S768 .f32)
    (hx0 : ∀ (h : Fin 8) (r : Fin 512), (x0 (ix2 h r)).toNat < 16384) (r : Fin 512) (q : Fin 768) :
    body x0 x1 x2 x3 (ix2 r q)
      = Cert.Canine.lnRow
          (fun k => x1 (ix3 (Cert.Canine.hOf k) (⟨(x0 (ix2 (Cert.Canine.hOf k) r)).toNat, hx0 _ _⟩ : Fin 16384) (Cert.Canine.cOf k)))
          (fun k => x2 (ix1 k)) (fun k => x3 (ix1 k)) q := by
  have hz1 : (![0] : Fin 1 → Nat) = fun _ => 0 := funext fun a => by match a with | ⟨0, _⟩ => rfl
  have e2 : View.ld x2 Gen.r0_33 = x2 := View.ld_unit_zero (S := S768) hz1 _ x2
  have e3 : View.ld x3 Gen.r0_33 = x3 := View.ld_unit_zero (S := S768) hz1 _ x3
  have ee : (fun k => emb x0 x1 (ix2 r k))
      = fun k => x1 (ix3 (hOf k) (⟨(x0 (ix2 (hOf k) r)).toNat, hx0 _ _⟩ : Fin 16384) (cOf k)) :=
    funext fun k => emb_apply x0 x1 hx0 r k
  unfold body
  rw [pay1_apply, e2, e3, ee]

end Cert.KernelIdeal.Hand

end
-- ==== Proof.Hash.lean ====
/-
  The bucket lies in [0, 16384).

  The truncated remainder r of a 32-bit word by 16384 satisfies -16384 < r < 16384 as a signed number. When r is
  negative the adjusted value r + 16384 lies in (0, 16384) and the 32-bit addition does not wrap; otherwise the
  value is r itself. Either way the result is in [0, 16384), so its signed and unsigned readings agree.
-/
import proofs.«429536_j49675591745547_1_alg».proof.Proof.Spec

namespace Cert.Canine

open Idealize.ShloMosaic

/-- The divisor 16384 is neither zero nor minus one, so the remainder is the truncated one. -/
theorem remsi_host_16384 (y : BitVec 32) : IntOp.remsi .host y 16384#32 = y.srem 16384#32 := by
  unfold IntOp.remsi
  rw [if_neg]
  unfold IntOp.SDivCorner
  rintro (h | ⟨_, h⟩) <;> exact absurd h (by decide)

/-- The truncated remainder by 16384 lies strictly between -16384 and 16384. -/
theorem srem_16384_range (y : BitVec 32) :
    -16384 < (y.srem 16384#32).toInt ∧ (y.srem 16384#32).toInt < 16384 := by
  rw [BitVec.toInt_srem]
  have h16 : (16384#32 : BitVec 32).toInt = 16384 := by decide
  rw [h16]
  constructor
  · exact Int.lt_tmod_of_pos _ (by decide)
  · exact Int.tmod_lt_of_pos _ (by decide)

/-- The adjusted remainder as a case split on the sign of the truncated remainder. -/
theorem modW_eq (y : BitVec 32) :
    modW y = if (y.srem 16384#32).toInt < 0 then y.srem 16384#32 + 16384#32 else y.srem 16384#32 := by
  unfold modW
  rw [remsi_host_16384]
  generalize y.srem 16384#32 = r
  have hc : IntOp.cmpi .slt (16384#32 : BitVec 32) 0#32 = 0#1 := by decide
  rw [hc]
  by_cases h : r.toInt < 0
  · have h1 : r.slt 0#32 = true := by
      rw [BitVec.slt_eq_decide]; simpa using h
    have h2 : (r != 0#32) = true := by
      rw [bne_iff_ne]; intro h0; rw [h0] at h; simp at h
    simp only [IntOp.cmpi, IntOp.andi, IntOp.addi, Scalar.select, h1, h2, h, if_true]
    rw [if_pos (by decide)]
  · have h1 : r.slt 0#32 = false := by
      rw [BitVec.slt_eq_decide]; simpa using h
    simp only [IntOp.cmpi, IntOp.andi, IntOp.addi, Scalar.select, h1, h, if_false]
    cases (r != 0#32)
    · rw [if_neg (by decide)]
    · rw [if_neg (by decide)]

theorem modW_range (y : BitVec 32) : 0 ≤ (modW y).toInt ∧ (modW y).toInt < 16384 := by
  rw [modW_eq]
  have hr := srem_16384_range y
  generalize y.srem 16384#32 = r at hr ⊢
  by_cases h : r.toInt < 0
  · rw [if_pos h, BitVec.toInt_add]
    have h16 : (16384#32 : BitVec 32).toInt = 16384 := by decide
    rw [h16]
    have hb : (r.toInt + 16384).bmod (2 ^ 32) = r.toInt + 16384 := by
      apply Int.bmod_eq_of_le <;> omega
    rw [hb]; omega
  · rw [if_neg h]; omega

theorem hashW_range (x p : BitVec 32) : 0 ≤ (hashW x p).toInt ∧ (hashW x p).toInt < 16384 :=
  modW_range _

theorem hashW_toNat_lt (x p : BitVec 32) : (hashW x p).toNat < 16384 := by
  have h := hashW_range x p
  have hlt := (hashW x p).isLt
  rw [BitVec.toInt_eq_toNat_cond] at h
  split at h <;> omega

theorem hashW_toInt (x p : BitVec 32) : (hashW x p).toInt = ((hashW x p).toNat : Int) := by
  have h := hashW_toNat_lt x p
  rw [BitVec.toInt_eq_toNat_cond]
  rw [if_pos (by omega)]

theorem bucket_val (x p : BitVec 32) : (bucket x p).val = (hashW x p).toNat := by
  show (hashW x p).toNat % 16384 = (hashW x p).toNat
  exact Nat.mod_eq_of_lt (hashW_toNat_lt x p)

theorem hashW_slt_zero (x p : BitVec 32) : IntOp.cmpi .slt (hashW x p) 0#32 = 0#1 := by
  have h := (hashW_range x p).1
  have h1 : (hashW x p).slt 0#32 = false := by
    rw [BitVec.slt_eq_decide]; simpa using h
  simp only [IntOp.cmpi, h1]
  decide

end Cert.Canine
-- ==== Proof.KHost.lean ====
/-
  What the host operations before the kernel call leave in the two arrays the call reads.

  The ids array of shape [8, 8192] is flattened to [65536]; one is added to every id; row h of the [8, 65536] product is
  that sum times the h-th multiplier; the remainder by 16384 is taken and moved into [0, 16384) by adding the modulus
  when the truncated remainder is negative and nonzero. So entry (h, n) of the array is the bucket of id
  (n / 8192, n % 8192) under multiplier h. The table array is the conversion of the launched table to a narrower
  float format, which at the ideal instance is the identity.
-/
import proofs.«429536_j49675591745547_1_alg».proof.Proof.Gen.KernelIdeal.Frame
import proofs.«429536_j49675591745547_1_alg».proof.Proof.Spec
import proofs.«429536_j49675591745547_1_alg».proof.Proof.Hash
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Cert.KernelIdeal Cert.KernelIdeal.Gen

/-! ## Elementwise integer operations read at an index -/

section Pointwise

variable {s : Shape} {w : Nat}

theorem addi_at (x y : IVec s w) (i : s.Idx) : addi x y i = IntOp.addi (x i) (y i) := rfl
theorem muli_at (x y : IVec s w) (i : s.Idx) : muli x y i = IntOp.muli (x i) (y i) := rfl
theorem andi_at (x y : IVec s w) (i : s.Idx) : andi x y i = IntOp.andi (x i) (y i) := rfl
theorem cmpi_at (p : CmpIPredicate) (x y : IVec s w) (i : s.Idx) : cmpi p x y i = IntOp.cmpi p (x i) (y i) := rfl
theorem hostRemsi_at (x y : IVec s w) (i : s.Idx) : Host.remsi x y i = IntOp.remsi .host (x i) (y i) := rfl

end Pointwise

/-! ## The broadcasts of this program read at an index -/

section Broadcasts

variable {α : Type}

/-- A rank-0 operand broadcast to any shape: its one entry everywhere. -/
theorem bcast_scalar_at {t : Shape} (hb : S_.BroadcastsInDim t (![] : Fin 0 → Fin t.rank)) (x : S_.Idx → α) (j : t.Idx) :
    broadcastInDim t ![] hb x j = x ix0 :=
  broadcastInDim_apply _ hb x j ix0 (fun a => a.elim0)

/-- One row of 65536 broadcast over eight rows. -/
theorem bcast_row_at (hb : S1x65536.BroadcastsInDim S8x65536 (![0, 1] : Fin 2 → Fin S8x65536.rank)) (x : S1x65536.Idx → α)
    (h : Fin 8) (n : Fin 65536) : broadcastInDim S8x65536 ![0, 1] hb x (ix2 h n) = x (ix2 0 n) :=
  broadcastInDim_apply _ hb x _ (ix2 0 n) (fun a => match a with | ⟨0, _⟩ => rfl | ⟨1, _⟩ => rfl)

/-- One column of 8 broadcast over 65536 columns. -/
theorem bcast_col_at (hb : S8x1.BroadcastsInDim S8x65536 (![0, 1] : Fin 2 → Fin S8x65536.rank)) (x : S8x1.Idx → α)
    (h : Fin 8) (n : Fin 65536) : broadcastInDim S8x65536 ![0, 1] hb x (ix2 h n) = x (ix2 h 0) :=
  broadcastInDim_apply _ hb x _ (ix2 h 0) (fun a => match a with | ⟨0, _⟩ => rfl | ⟨1, _⟩ => rfl)

/-- A vector of 65536 as a one-row matrix. -/
theorem bcast_vec_row_at (hb : S65536.BroadcastsInDim S1x65536 (![1] : Fin 1 → Fin S1x65536.rank)) (x : S65536.Idx → α)
    (z : Fin 1) (n : Fin 65536) : broadcastInDim S1x65536 ![1] hb x (ix2 z n) = x (ix1 n) :=
  broadcastInDim_apply _ hb x _ (ix1 n) (fun a => match a with | ⟨0, _⟩ => rfl)

/-- A vector of 8 as a one-column matrix. -/
theorem bcast_vec_col_at (hb : S8.BroadcastsInDim S8x1 (![0] : Fin 1 → Fin S8x1.rank)) (x : S8.Idx → α)
    (h : Fin 8) (z : Fin 1) : broadcastInDim S8x1 ![0] hb x (ix2 h z) = x (ix1 h) :=
  broadcastInDim_apply _ hb x _ (ix1 h) (fun a => match a with | ⟨0, _⟩ => rfl)

/-- The flattening of an [8, 8192] array read at position n: the entry at row n / 8192, column n % 8192. -/
theorem flatten_at (hc : S8x8192.ShapeCasts S65536) (x : S8x8192.Idx → α) (n : Fin 65536) :
    shapeCast S65536 x hc (ix1 n)
      = x (ix2 (⟨n.val / 8192, by have := n.isLt; omega⟩ : Fin 8) (⟨n.val % 8192, Nat.mod_lt _ (by decide)⟩ : Fin 8192)) := by
  refine shapeCast_apply x hc _ _ ?_
  rw [Shape.rowMajor_val_two, Shape.rowMajor_val_one]
  show n.val / 8192 * 8192 + n.val % 8192 = n.val
  omega

end Broadcasts

/-- The literal multipliers are the eight primes. -/
theorem lit0_rowMajor (h : Fin 8) : lit0 (S8.rowMajor (ix1 h)) = Cert.Canine.prime h := by
  have e : S8.rowMajor (ix1 h) = h := Fin.ext (by rw [Shape.rowMajor_val_one])
  rw [e]
  fin_cases h <;> rfl

/-- The divisor the remainder is taken by: the literal 16384, kept because it is not zero. -/
theorem divisor_eq : Scalar.select (IntOp.cmpi .eq (16384#32 : BitVec 32) 0#32) (1#32 : BitVec 32) 16384#32 = 16384#32 := by
  decide

/-! ## The array of buckets -/

section Hashed

variable {F : FTy → Type} [FloatOps F]
variable (m : (ℓ : Loc nD τ sig) → Buf (Elt F) ℓ)

/-- Entry (h, n) of the first array the call reads is the bucket of id (n / 8192, n % 8192) under multiplier h
    (at any float instance: no float operation is involved). -/
theorem V_hashed (c : Dev nD) (h : Fin 8) (n : Fin 65536) :
    (Gen.V m c main_v8 : S8x65536.Idx → BitVec 32) (ix2 h n)
      = Cert.Canine.hashW ((m ((c : Thread nD τ).loc main_arg0) : S8x8192.Idx → BitVec 32) (ix2 (⟨n.val / 8192, by have := n.isLt; omega⟩ : Fin 8) (⟨n.val % 8192, Nat.mod_lt _ (by decide)⟩ : Fin 8192))) (Cert.Canine.prime h) := by
  dsimp only [Gen.V, Gen.V0]
  simp only [Gen.hostOps0, Gen.hostOps0_1, Gen.hostOps0_2, List.flatten_cons, List.flatten_nil, List.append_nil, List.cons_append, List.nil_append]
  after_results_simp
  simp only [StableHlo.TRef.ofBuf, StableHlo.TRef.toBuf, cast_eq]
  simp only [select_apply, addi_at, muli_at, andi_at, cmpi_at, hostRemsi_at, id_eq]
  rw [bcast_row_at, bcast_col_at, bcast_vec_col_at, addi_at, bcast_vec_row_at]
  repeat rw [bcast_scalar_at]
  simp only [select_apply, cmpi_at, constantI_apply, divisor_eq, lit0_rowMajor]
  erw [flatten_at]
  rfl

end Hashed

/-! ## The table array -/

section Table

variable (m : (ℓ : Loc nD τ sig) → Buf (Elt Ideal) ℓ)

/-- The second array the call reads is the launched table: its conversion to the narrower format is the identity at
    the ideal instance. -/
theorem V_table (c : Dev nD) :
    (Gen.V m c main_v9 : S8x16384x96.Idx → EReal) = (m ((c : Thread nD τ).loc main_arg1) : S8x16384x96.Idx → EReal) := by
  dsimp only [Gen.V, Gen.V0]
  simp only [Gen.hostOps0, Gen.hostOps0_1, Gen.hostOps0_2, List.flatten_cons, List.flatten_nil, List.append_nil, List.cons_append, List.nil_append]
  after_results
  funext i
  exact truncf_apply _ _ i

end Table

end Cert.KernelIdeal.Hand

end
-- ==== Proof.KBlocks.lean ====
/-
  From blocks to the array. The kernel call runs the body at 128 points; point t reads columns 512 t … 512 t + 511 of the
  [8, 65536] bucket array, the whole table, scale and bias, and writes rows 512 t … 512 t + 511 of the [65536, 768] result.
  The bucket array's entry (h, n) is the bucket of the id at position (n / 8192, n mod 8192) under multiplier h, so entry
  (r, q) of the block point t writes is the specification at position n = 512 t + r, column q; the 128 blocks tile the
  array (row n belongs to point n / 512), hence the array the call leaves is `Garr` of the four launched arguments.
-/
import proofs.«429536_j49675591745547_1_alg».proof.Proof.KBody
import proofs.«429536_j49675591745547_1_alg».proof.Proof.KHost
import proofs.«429536_j49675591745547_1_alg».proof.Proof.KArr
import proofs.«429536_j49675591745547_1_alg».proof.Proof.Hash
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

/-- One block's entry: when the block's bucket array holds the buckets of positions n0 + r, entry (r, q) of what the body
    stores is the result at position n0 + r, column q. -/
theorem body_at (x0 : Vec Ideal S8x512 .i32) (x1 : Vec Ideal S8x16384x96 .bf16) (x2 x3 : Vec Ideal S768 .f32)
    (ids : S8x8192.Idx → BitVec 32) (b : Fin 8) (s : Fin 8192) (r : Fin 512)
    (hx0 : ∀ (h : Fin 8), x0 (ix2 h r) = Cert.Canine.hashW (ids (ix2 b s)) (Cert.Canine.prime h))
    (hlt : ∀ (h : Fin 8) (r : Fin 512), (x0 (ix2 h r)).toNat < 16384) (q : Fin 768) :
    body x0 x1 x2 x3 (ix2 r q) = Cert.Canine.Gat ids x1 x2 x3 b s q := by
  rw [body_apply x0 x1 x2 x3 hlt r q]
  unfold Cert.Canine.Gat Cert.Canine.embAt
  congr 1
  funext k
  refine congrArg (fun z => x1 (ix3 (Cert.Canine.hOf k) z (Cert.Canine.cOf k))) (Fin.ext ?_)
  show (x0 (ix2 (Cert.Canine.hOf k) r)).toNat = (Cert.Canine.bucket (ids (ix2 b s)) (Cert.Canine.prime (Cert.Canine.hOf k))).val
  rw [Cert.Canine.bucket_val, hx0]

variable (m : (ℓ : Loc nD τ sig) → Buf (Elt Ideal) ℓ) (ρ : Dev nD → PrngReg)

theorem N128 : cfg0.N = 128 := N_0

/-- The printed index maps over the grid: the bucket array and the output move one block per point along their long
    axis; the table, the scale and the bias stay at their one block. -/
theorem idx_facts : ∀ t : Fin cfg0.N,
    win0_0.index t (0 : Fin 2) = 0 ∧ win0_0.index t (1 : Fin 2) = t.val
    ∧ win0_1.index t (0 : Fin 3) = 0 ∧ win0_1.index t (1 : Fin 3) = 0 ∧ win0_1.index t (2 : Fin 3) = 0
    ∧ win0_2.index t (0 : Fin 1) = 0 ∧ win0_3.index t (0 : Fin 1) = 0
    ∧ win0_4.index t (0 : Fin 2) = t.val ∧ win0_4.index t (1 : Fin 2) = 0 :=
  (by decide +kernel : ∀ t : Fin grid0.N, _)

theorem iblk0_apply (c : Dev nD) (t : Fin cfg0.N) (h : Fin 8) (r : Fin 512) (n : Fin 65536) (hn : n.val = 512 * t.val + r.val) :
    (iblk m c 0 t : Vec Ideal S8x512 .i32) (ix2 h r) = (V m c main_v8 : S8x65536.Idx → BitVec 32) (ix2 h n) := by
  obtain ⟨e0, e1, -⟩ := idx_facts t
  unfold iblk
  rw [View.read_apply]
  show V m c main_v8 _ = V m c main_v8 _
  congr 1
  funext a
  apply Fin.ext
  match a with
  | ⟨0, _⟩ => show win0_0.index t (0 : Fin 2) * 8 + 1 * h.val = h.val; omega
  | ⟨1, _⟩ => show win0_0.index t (1 : Fin 2) * 512 + 1 * r.val = n.val; omega

theorem iblk1_eq (c : Dev nD) (t : Fin cfg0.N) :
    (iblk m c 1 t : Vec Ideal S8x16384x96 .bf16) = (V m c main_v9 : S8x16384x96.Idx → EReal) := by
  obtain ⟨-, -, e0, e1, e2, -⟩ := idx_facts t
  funext j
  unfold iblk
  rw [View.read_apply]
  show V m c main_v9 _ = V m c main_v9 _
  congr 1
  funext a
  apply Fin.ext
  match a with
  | ⟨0, _⟩ => show win0_1.index t (0 : Fin 3) * 8 + 1 * (j 0).val = (j 0).val; omega
  | ⟨1, _⟩ => show win0_1.index t (1 : Fin 3) * 16384 + 1 * (j 1).val = (j 1).val; omega
  | ⟨2, _⟩ => show win0_1.index t (2 : Fin 3) * 96 + 1 * (j 2).val = (j 2).val; omega

theorem iblk2_eq (c : Dev nD) (t : Fin cfg0.N) :
    (iblk m c 2 t : Vec Ideal S768 .f32) = (V m c main_arg2 : S768.Idx → EReal) := by
  obtain ⟨-, -, -, -, -, e0, -⟩ := idx_facts t
  funext j
  unfold iblk
  rw [View.read_apply]
  show V m c main_arg2 _ = V m c main_arg2 _
  congr 1
  funext a
  apply Fin.ext
  match a with
  | ⟨0, _⟩ => show win0_2.index t (0 : Fin 1) * 768 + 1 * (j 0).val = (j 0).val; omega

theorem iblk3_eq (c : Dev nD) (t : Fin cfg0.N) :
    (iblk m c 3 t : Vec Ideal S768 .f32) = (V m c main_arg3 : S768.Idx → EReal) := by
  obtain ⟨-, -, -, -, -, -, e0, -⟩ := idx_facts t
  funext j
  unfold iblk
  rw [View.read_apply]
  show V m c main_arg3 _ = V m c main_arg3 _
  congr 1
  funext a
  apply Fin.ext
  match a with
  | ⟨0, _⟩ => show win0_3.index t (0 : Fin 1) * 768 + 1 * (j 0).val = (j 0).val; omega

theorem hz : (![0, 0] : Fin 2 → Nat) = fun _ => 0 := funext fun a => by fin_cases a <;> rfl

/-- The result array of the region as one function of the launched arguments. -/
abbrev Gm (c : Dev nD) : S65536x768.Idx → EReal :=
  Cert.Canine.Garr (m ((c : Thread nD τ).loc main_arg0)) (m ((c : Thread nD τ).loc main_arg1)) (m ((c : Thread nD τ).loc main_arg2))
    (m ((c : Thread nD τ).loc main_arg3))

/-- What point t writes back is block t of that function: rows 512 t … 512 t + 511. -/
theorem flushed_eq (c : Dev nD) (t : Fin cfg0.N) :
    (dats m 0 c).flushed 4 t = ((cfg0.win 4).blk t).view.read (Elt Ideal) (Gm m c) := by
  show (cfg0.win 4).cut (grid0.coords t) ((dats m 0 c).after 4 t) = _
  rw [after0_4, out0_4_eq]
  rw [View.canon_unit_zero hz]
  have ht : t.val < 128 := lt_of_lt_of_eq t.isLt N128
  obtain ⟨-, -, -, -, -, -, -, e0, e1⟩ := idx_facts t
  funext j
  rw [View.read_apply]
  show body (iblk m c 0 t) (iblk m c 1 t) (iblk m c 2 t) (iblk m c 3 t) j = Gm m c (((cfg0.win 4).blk t).view.emb j)
  obtain ⟨r, q, rfl⟩ : ∃ (r : Fin 512) (q : Fin 768), j = ix2 r q := ⟨j 0, j 1, eq_ix2 _⟩
  have hemb : ((cfg0.win 4).blk t).view.emb (ix2 r q)
      = (ix2 (⟨512 * t.val + r.val, by have := r.isLt; omega⟩ : Fin 65536) q : S65536x768.Idx) := by
    funext a
    apply Fin.ext
    match a with
    | ⟨0, _⟩ => show win0_4.index t (0 : Fin 2) * 512 + 1 * r.val = 512 * t.val + r.val; omega
    | ⟨1, _⟩ => show win0_4.index t (1 : Fin 2) * 768 + 1 * q.val = q.val; omega
  rw [hemb]
  refine (body_at (iblk m c 0 t) (iblk m c 1 t) (iblk m c 2 t) (iblk m c 3 t) (m ((c : Thread nD τ).loc main_arg0))
    (Cert.Canine.bOf (⟨512 * t.val + r.val, by have := r.isLt; omega⟩ : Fin 65536))
    (Cert.Canine.sOf (⟨512 * t.val + r.val, by have := r.isLt; omega⟩ : Fin 65536)) r ?_ ?_ q).trans ?_
  · intro h
    rw [iblk0_apply m c t h r (⟨512 * t.val + r.val, by have := r.isLt; omega⟩ : Fin 65536) rfl]
    exact V_hashed m c h _
  · intro h r'
    rw [iblk0_apply m c t h r' (⟨512 * t.val + r'.val, by have := r'.isLt; omega⟩ : Fin 65536) rfl, V_hashed m c h]
    exact Cert.Canine.hashW_toNat_lt _ _
  · rw [iblk1_eq m c t, iblk2_eq m c t, iblk3_eq m c t, V_table m c, V_main_arg2, V_main_arg3]
    rfl

/-- An index of the array is in point t's block iff each coordinate is in the block's range on its axis. -/
theorem mem_blk (t : Fin cfg0.N) (i : S65536x768.Idx) :
    i ∈ ((cfg0.win 4).blk t).view.set ↔ ∀ a : Fin 2, win0_4.index t a * S512x768.size a ≤ (i a).val ∧ (i a).val < win0_4.index t a * S512x768.size a + S512x768.size a := by
  show i ∈ ((View.whole main_v10).slice (win0_4.rect t)).set ↔ _
  rw [View.set_slice_whole, Rect.mem_set_unit]
  exact Iff.rfl

/-- Row n of the array is written by point n / 512. -/
theorem cover (i : S65536x768.Idx) :
    ∃ t : Fin cfg0.N, (cfg0.win 4).flush t = true ∧ i ∈ ((cfg0.win 4).blk t).view.set := by
  have hi0 : (i 0).val < 65536 := (i 0).isLt
  have hi1 : (i 1).val < 768 := (i 1).isLt
  have hlt : (i 0).val / 512 < cfg0.N := by rw [N128]; omega
  obtain ⟨-, -, -, -, -, -, -, e0, e1⟩ := idx_facts ⟨(i 0).val / 512, hlt⟩
  refine ⟨⟨(i 0).val / 512, hlt⟩, flush0_4 _, ?_⟩
  rw [mem_blk]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_4.index ⟨(i 0).val / 512, hlt⟩ (1 : Fin 2) * 768 ≤ (i 1).val
      ∧ (i 1).val < win0_4.index ⟨(i 0).val / 512, hlt⟩ (1 : Fin 2) * 768 + 768
    omega

/-- The array the region leaves: every row at the result of its position. -/
theorem final (c : Dev nD) :
    (dats m 0 c).arrAt 4 cfg0.N
      = Cert.Canine.Garr (m ((c : Thread nD τ).loc main_arg0)) (m ((c : Thread nD τ).loc main_arg1))
          (m ((c : Thread nD τ).loc main_arg2)) (m ((c : Thread nD τ).loc main_arg3)) :=
  (dats m 0 c).arrAt_eq_of_cover 4 (Gm m c) (fun t _ => flushed_eq m c t) cover

end Cert.KernelIdeal.Hand

end
-- ==== Proof.KValue.lean ====
/-
  The kernel program's run at the ideal values: every execution terminates with the result array the specification
  of the four arguments and the arguments as launched. The pipeline leaves its output array, flat over the 65536
  positions, at the specification row by row; the one host operation after the region gives the flat array its two
  leading axes back, position (b, s) being row 8192 · b + s; the arguments are written by no operation.
-/
import proofs.«429536_j49675591745547_1_alg».proof.Proof.Gen.KernelIdeal.Frame
import proofs.«429536_j49675591745547_1_alg».proof.Proof.KArr
import proofs.«429536_j49675591745547_1_alg».proof.Proof.KBlocks
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.ValueIdx
open Cert.KernelIdeal

/-- The flat array given its two leading axes back: position (b, s) is row 8192 · b + s. -/
theorem unflatten_apply {α : Type} (x : S65536x768.Idx → α) (h : S65536x768.ShapeCasts S8x8192x768) (b : Fin 8)
    (s : Fin 8192) (q : Fin 768) :
    shapeCast S8x8192x768 x h (ix3 b s q)
      = x (ix2 (⟨8192 * b.val + s.val, by have := b.isLt; have := s.isLt; omega⟩ : Fin 65536) q) := by
  refine shapeCast_apply x h (ix3 b s q)
    (ix2 (⟨8192 * b.val + s.val, by have := b.isLt; have := s.isLt; omega⟩ : Fin 65536) q) ?_
  rw [Shape.rowMajor_val_two, Shape.rowMajor_val_three]
  show (8192 * b.val + s.val) * 768 + q.val = (b.val * 8192 + s.val) * 768 + q.val
  omega

/-- Row 8192 · b + s of the flat array is position (b, s). -/
theorem bOf_row (b : Fin 8) (s : Fin 8192) (hlt : 8192 * b.val + s.val < 65536) :
    Cert.Canine.bOf ⟨8192 * b.val + s.val, hlt⟩ = b := by
  refine Fin.ext ?_
  show (8192 * b.val + s.val) / 8192 = b.val
  have := s.isLt
  omega

theorem sOf_row (b : Fin 8) (s : Fin 8192) (hlt : 8192 * b.val + s.val < 65536) :
    Cert.Canine.sOf ⟨8192 * b.val + s.val, hlt⟩ = s := by
  refine Fin.ext ?_
  show (8192 * b.val + s.val) % 8192 = s.val
  have := s.isLt
  omega

variable (m : (ℓ : Loc nD τ sig) → Buf (Elt Ideal) ℓ) (ρ : Dev nD → PrngReg)

/-- The result buffer after the operation that follows the region: the specification of the arguments. -/
theorem tail_v11 (c : Dev nD) :
    Pipeline.afterTail₀ cfgs (Gen.dats m) 0 (Gen.V0 m) [Gen.hostOps1] c main_v11
      = Cert.Canine.G (m ((c.tc : Thread nD τ).loc main_arg0)) (m ((c.tc : Thread nD τ).loc main_arg1))
          (m ((c.tc : Thread nD τ).loc main_arg2)) (m ((c.tc : Thread nD τ).loc main_arg3)) := by
  have hw : Pipeline.withArrays spec0 c (Gen.V0 m c) (fun w => (Gen.dats m 0 c).arrAt w cfg0.N) (Proc.devRef .tc main_v10)
      = Cert.Canine.Garr (m ((c.tc : Thread nD τ).loc main_arg0)) (m ((c.tc : Thread nD τ).loc main_arg1))
          (m ((c.tc : Thread nD τ).loc main_arg2)) (m ((c.tc : Thread nD τ).loc main_arg3)) :=
    (Pipeline.withArrays_arr spec0 Gen.launch0.win.arr_inj c (Gen.V0 m c) (fun w => (Gen.dats m 0 c).arrAt w cfg0.N) 4).trans
      (final m c)
  unfold Pipeline.afterTail₀
  show StableHlo.after Gen.hostOps1 _ (Proc.devRef .tc main_v11) = _
  after_results
  funext i
  obtain ⟨b, s, q, rfl⟩ : ∃ (b : Fin 8) (s : Fin 8192) (q : Fin 768), i = ix3 b s q := ⟨i 0, i 1, i 2, eq_ix3 i⟩
  rw [Cert.Canine.G_apply]
  show shapeCast S8x8192x768
      (Pipeline.withArrays spec0 c (Gen.V0 m c) (fun w => (Gen.dats m 0 c).arrAt w cfg0.N) (Proc.devRef .tc main_v10))
      Gen.shapeCasts_S65536x768_S8x8192x768 (ix3 b s q) = _
  rw [hw, unflatten_apply, Cert.Canine.Garr_apply, bOf_row, sOf_row]

/-- Every execution of the kernel program terminates with its result the specification of the arguments and the
    arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = Cert.Canine.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c =>
    ⟨((h c).2 main_v11 (Pipeline.mem_restRefs_of main_v11 (by decide) (by decide))).trans (tail_v11 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).1 2).trans (((Gen.dats m 0 c).arrAt_in 2 rfl _).trans ((Gen.A_eq m c 2).trans (Gen.V_main_arg2 m c))),
      ((h c).1 3).trans (((Gen.dats m 0 c).arrAt_in 3 rfl _).trans ((Gen.A_eq m c 3).trans (Gen.V_main_arg3 m c)))⟩)
    (Gen.run_main m ρ)

end Cert.KernelIdeal.Hand

end
-- ==== Proof.RefTerm.lean ====
/-
  The reference's result as one term of its four argument arrays, in three stages: the buckets of every
  (table, position) pair, the embedding rows gathered from the tables and laid out position-major, and the
  layer normalisation of each row. Each stage is the program's own operations composed, nothing evaluated.
-/
import proofs.«429536_j49675591745547_1_alg».proof.ReferenceIdeal

noncomputable section

namespace Cert.ReferenceIdeal.Hand

open Idealize.ShloMosaic Idealize.SL.Sem Cert.ReferenceIdeal Cert.ReferenceIdeal.Facts₀ Cert.ReferenceIdeal.Facts

variable {F : FTy → Type} [FloatOps F] [Cert.ReferenceIdeal.Facts]

/-- The eight multipliers as the program's literal table. -/
def rPrimes : IVec S8 32 := fun i => lit0 (S8.rowMajor i)

/-- `(ids + 1) · prime` at every (table, row, column). -/
def rProd (a0 : IVec S8x8192 32) : IVec S8x8x8192 32 :=
  muli
    (broadcastInDim S8x8x8192 ![0, 1, 2] bcast_S1x8x8192_S8x8x8192_0_1_2
      (broadcastInDim S1x8x8192 ![1, 2] bcast_S8x8192_S1x8x8192_1_2
        (addi a0 (broadcastInDim S8x8192 ![] bcast_S_S8x8192 (constantI S_ 32 1#32)))))
    (broadcastInDim S8x8x8192 ![0, 1, 2] bcast_S8x1x1_S8x8x8192_0_1_2
      (broadcastInDim S8x1x1 ![0] bcast_S8_S8x1x1_0 rPrimes))

/-- The modulus the remainder divides by: 16384, or 1 were it zero. -/
def rDiv : IVec S_ 32 :=
  select (cmpi .eq (id (constantI S_ 32 16384#32) : IVec S_ 32) (constantI S_ 32 0#32)) (constantI S_ 32 1#32)
    (id (constantI S_ 32 16384#32) : IVec S_ 32)

/-- The truncated remainder of `y` by the modulus. -/
def rRem (y : IVec S8x8x8192 32) : IVec S8x8x8192 32 :=
  Host.remsi y (broadcastInDim S8x8x8192 ![] bcast_S_S8x8x8192 rDiv)

/-- The remainder with the modulus's sign. -/
def rMod (y : IVec S8x8x8192 32) : IVec S8x8x8192 32 :=
  select
    (andi
      (cmpi .ne
        (cmpi .slt (rRem y) (broadcastInDim S8x8x8192 ![] bcast_S_S8x8x8192 (constantI S_ 32 0#32)))
        (broadcastInDim S8x8x8192 ![] bcast_S_S8x8x8192 (cmpi .slt rDiv (constantI S_ 32 0#32))))
      (cmpi .ne (rRem y) (broadcastInDim S8x8x8192 ![] bcast_S_S8x8x8192 (constantI S_ 32 0#32))))
    (addi (rRem y) (broadcastInDim S8x8x8192 ![] bcast_S_S8x8x8192 rDiv))
    (rRem y)

/-- The start indices of the gather: the buckets, a negative one moved up by the table length. -/
def rIdx (a0 : IVec S8x8192 32) : IVec S8x8x8192 32 :=
  select
    (cmpi .slt (rMod (rProd a0)) (broadcastInDim S8x8x8192 ![] bcast_S_S8x8x8192 (constantI S_ 32 0#32)))
    (addi (rMod (rProd a0)) (broadcastInDim S8x8x8192 ![] bcast_S_S8x8x8192 (constantI S_ 32 16384#32)))
    (rMod (rProd a0))

/-- The embedding rows: per table the gathered rows, tables moved next to the columns, then flattened. -/
def rEmb (a0 : IVec S8x8192 32) (a1 : FVec F S8x16384x96 .f32) : FVec F S8x8192x768 .f32 :=
  shapeCast S8x8192x768
    (transpose S8x8192x8x96 [1, 2, 0, 3]
      (Host.gather gather_S8x16384x96_S8x8x8192x1_S8x8x8192x96_3_1_0_0_1_3_1196 a1
        (broadcastInDim S8x8x8192x1 ![0, 1, 2] bcast_S8x8x8192_S8x8x8192x1_0_1_2 (rIdx a0)))
      transposes_S8x8x8192x96_S8x8192x8x96_1_2_0_3)
    shapeCasts_S8x8192x8x96_S8x8192x768

/-- A row's mean, kept as a column. -/
def rMean (e : FVec F S8x8192x768 .f32) : FVec F S8x8192x1 .f32 :=
  Host.divf
    (broadcastInDim S8x8192x1 ![0, 1] bcast_S8x8192_S8x8192x1_0_1
      (Host.reduceAdd e (constant S_ .f32 0x00000000#32) reducesTo_S8x8192x768_S8x8192_d2 h_S_))
    (broadcastInDim S8x8192x1 ![] bcast_S_S8x8192x1 (constant S_ .f32 0x44400000#32))

/-- The row minus its mean. -/
def rDev (e : FVec F S8x8192x768 .f32) : FVec F S8x8192x768 .f32 :=
  subf e (broadcastInDim S8x8192x768 ![0, 1, 2] bcast_S8x8192x1_S8x8192x768_0_1_2 (rMean e))

/-- A row's variance, kept as a column. -/
def rVar (e : FVec F S8x8192x768 .f32) : FVec F S8x8192x1 .f32 :=
  Host.divf
    (broadcastInDim S8x8192x1 ![0, 1] bcast_S8x8192_S8x8192x1_0_1
      (Host.reduceAdd (mulf (rDev e) (rDev e)) (constant S_ .f32 0x00000000#32) reducesTo_S8x8192x768_S8x8192_d2 h_S_))
    (broadcastInDim S8x8192x1 ![] bcast_S_S8x8192x1 (constant S_ .f32 0x44400000#32))

/-- The layer normalisation of every row. -/
def rLN (e : FVec F S8x8192x768 .f32) (a2 a3 : FVec F S768 .f32) : FVec F S8x8192x768 .f32 :=
  addf
    (mulf
      (mulf (rDev e)
        (broadcastInDim S8x8192x768 ![0, 1, 2] bcast_S8x8192x1_S8x8192x768_0_1_2
          (Host.rsqrt (addf (rVar e) (broadcastInDim S8x8192x1 ![] bcast_S_S8x8192x1 (constant S_ .f32 0x358637BD#32))))))
      (broadcastInDim S8x8192x768 ![0, 1, 2] bcast_S1x1x768_S8x8192x768_0_1_2
        (broadcastInDim S1x1x768 ![2] bcast_S768_S1x1x768_2 a2)))
    (broadcastInDim S8x8192x768 ![0, 1, 2] bcast_S1x1x768_S8x8192x768_0_1_2
      (broadcastInDim S1x1x768 ![2] bcast_S768_S1x1x768_2 a3))

/-- The reference's result of its four arguments. -/
def refOut (a0 : IVec S8x8192 32) (a1 : FVec F S8x16384x96 .f32) (a2 a3 : FVec F S768 .f32) : FVec F S8x8192x768 .f32 :=
  rLN (rEmb a0 a1) a2 a3

end Cert.ReferenceIdeal.Hand

end
-- ==== Proof.RefOps.lean ====
/-
  The reference's @main as a straight line. Once the two outlined functions are unfolded at their call sites (the
  floor-remainder by the table length, and the scalar select it calls for the divisor) @main is seventy-one host
  operations in order: the list `ops`. Every weakly fair execution terminates with each buffer at the fold of those
  operations over the launch contents.
-/
import proofs.«429536_j49675591745547_1_alg».proof.Proof.RefTerm
import proofs.«429536_j49675591745547_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: ten of its own (the multipliers, `ids + 1`, the two
    broadcasts to (table, row, column), the product, the table length), the remainder's twenty-one over the
    call's buffers (the divisor's conversion, its test against zero and the scalar select, the truncated
    remainder, the sign tests, the correction), then @main's remaining forty (the wrap of a negative bucket, the
    gather, the re-layout, the layer normalisation). -/
abbrev ops : List (HloOp τ sig (Elt F)) :=
  [ nullary main_c (fun i => lit0 (S8.rowMajor i)),
    nullary main_c_0 (constantI S_ 32 1#32),
    unary main_c_0 main_v0 (broadcastInDim S8x8192 ![] bcast_S_S8x8192 : (⟨S_, .i32⟩ : BufTy).Contents (Elt F) → (⟨S8x8192, .i32⟩ : BufTy).Contents (Elt F)),
    binary main_arg0 main_v0 main_v1 (addi : (⟨S8x8192, .i32⟩ : BufTy).Contents (Elt F) → (⟨S8x8192, .i32⟩ : BufTy).Contents (Elt F) → (⟨S8x8192, .i32⟩ : BufTy).Contents (Elt F)),
    unary main_v1 main_v2 (broadcastInDim S1x8x8192 ![1, 2] bcast_S8x8192_S1x8x8192_1_2 : (⟨S8x8192, .i32⟩ : BufTy).Contents (Elt F) → (⟨S1x8x8192, .i32⟩ : BufTy).Contents (Elt F)),
    unary main_c main_v3 (broadcastInDim S8x1x1 ![0] bcast_S8_S8x1x1_0 : (⟨S8, .i32⟩ : BufTy).Contents (Elt F) → (⟨S8x1x1, .i32⟩ : BufTy).Contents (Elt F)),
    unary main_v2 main_v4 (broadcastInDim S8x8x8192 ![0, 1, 2] bcast_S1x8x8192_S8x8x8192_0_1_2 : (⟨S1x8x8192, .i32⟩ : BufTy).Contents (Elt F) → (⟨S8x8x8192, .i32⟩ : BufTy).Contents (Elt F)),
    unary main_v3 main_v5 (broadcastInDim S8x8x8192 ![0, 1, 2] bcast_S8x1x1_S8x8x8192_0_1_2 : (⟨S8x1x1, .i32⟩ : BufTy).Contents (Elt F) → (⟨S8x8x8192, .i32⟩ : BufTy).Contents (Elt F)),
    binary main_v4 main_v5 main_v6 (muli : (⟨S8x8x8192, .i32⟩ : BufTy).Contents (Elt F) → (⟨S8x8x8192, .i32⟩ : BufTy).Contents (Elt F) → (⟨S8x8x8192, .i32⟩ : BufTy).Contents (Elt F)),
    nullary main_c_1 (constantI S_ 32 16384#32),
    TRef.unary (.of main_c_1) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S8x8x8192 ![] bcast_S_S8x8x8192),
    TRef.binary (.of main_v6) main_call0.v3 main_call0.v4 Host.remsi,
    TRef.nullary main_call0.c_1 (constantI S_ 32 0#32),
    TRef.unary main_call0.c_1 main_call0.v5 (broadcastInDim S8x8x8192 ![] bcast_S_S8x8x8192),
    TRef.binary main_call0.v4 main_call0.v5 main_call0.v6 (cmpi .ne),
    TRef.nullary main_call0.c_2 (constantI S_ 32 0#32),
    TRef.unary main_call0.c_2 main_call0.v7 (broadcastInDim S8x8x8192 ![] bcast_S_S8x8x8192),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S8x8x8192 ![] bcast_S_S8x8x8192),
    TRef.binary main_call0.v8 main_call0.v10 main_call0.v11 (cmpi .ne),
    TRef.binary main_call0.v11 main_call0.v6 main_call0.v12 andi,
    TRef.unary main_call0.call0.v0 main_call0.v13 (broadcastInDim S8x8x8192 ![] bcast_S_S8x8x8192),
    TRef.binary main_call0.v4 main_call0.v13 main_call0.v14 addi,
    TRef.ternary main_call0.v12 main_call0.v14 main_call0.v4 main_call0.v15 select,
    nullary main_c_2 (constantI S_ 32 0#32),
    unary main_c_2 main_v8 (broadcastInDim S8x8x8192 ![] bcast_S_S8x8x8192 : (⟨S_, .i32⟩ : BufTy).Contents (Elt F) → (⟨S8x8x8192, .i32⟩ : BufTy).Contents (Elt F)),
    binary main_v7 main_v8 main_v9 (cmpi .slt : (⟨S8x8x8192, .i32⟩ : BufTy).Contents (Elt F) → (⟨S8x8x8192, .i32⟩ : BufTy).Contents (Elt F) → (⟨S8x8x8192, .i1⟩ : BufTy).Contents (Elt F)),
    nullary main_c_3 (constantI S_ 32 16384#32),
    unary main_c_3 main_v10 (broadcastInDim S8x8x8192 ![] bcast_S_S8x8x8192 : (⟨S_, .i32⟩ : BufTy).Contents (Elt F) → (⟨S8x8x8192, .i32⟩ : BufTy).Contents (Elt F)),
    binary main_v7 main_v10 main_v11 (addi : (⟨S8x8x8192, .i32⟩ : BufTy).Contents (Elt F) → (⟨S8x8x8192, .i32⟩ : BufTy).Contents (Elt F) → (⟨S8x8x8192, .i32⟩ : BufTy).Contents (Elt F)),
    ternary main_v9 main_v11 main_v7 main_v12 (select : (⟨S8x8x8192, .i1⟩ : BufTy).Contents (Elt F) → (⟨S8x8x8192, .i32⟩ : BufTy).Contents (Elt F) → (⟨S8x8x8192, .i32⟩ : BufTy).Contents (Elt F) → (⟨S8x8x8192, .i32⟩ : BufTy).Contents (Elt F)),
    unary main_v12 main_v13 (broadcastInDim S8x8x8192x1 ![0, 1, 2] bcast_S8x8x8192_S8x8x8192x1_0_1_2 : (⟨S8x8x8192, .i32⟩ : BufTy).Contents (Elt F) → (⟨S8x8x8192x1, .i32⟩ : BufTy).Contents (Elt F)),
    binary main_arg1 main_v13 main_v14 ((fun x i => Host.gather gather_S8x16384x96_S8x8x8192x1_S8x8x8192x96_3_1_0_0_1_3_1196 x i) : (⟨S8x16384x96, .f32⟩ : BufTy).Contents (Elt F) → (⟨S8x8x8192x1, .i32⟩ : BufTy).Contents (Elt F) → (⟨S8x8x8192x96, .f32⟩ : BufTy).Contents (Elt F)),
    unary main_v14 main_v15 ((transpose S8x8192x8x96 [1, 2, 0, 3] · transposes_S8x8x8192x96_S8x8192x8x96_1_2_0_3) : (⟨S8x8x8192x96, .f32⟩ : BufTy).Contents (Elt F) → (⟨S8x8192x8x96, .f32⟩ : BufTy).Contents (Elt F)),
    reshape main_v15 main_v16 rfl shapeCasts_S8x8192x8x96_S8x8192x768,
    nullary main_cst (constant S_ .f32 0x00000000#32),
    binary main_v16 main_cst main_v17 ((fun x v => Host.reduceAdd x v reducesTo_S8x8192x768_S8x8192_d2 h_S_) : (⟨S8x8192x768, .f32⟩ : BufTy).Contents (Elt F) → (⟨S_, .f32⟩ : BufTy).Contents (Elt F) → (⟨S8x8192, .f32⟩ : BufTy).Contents (Elt F)),
    unary main_v17 main_v18 (broadcastInDim S8x8192x1 ![0, 1] bcast_S8x8192_S8x8192x1_0_1 : (⟨S8x8192, .f32⟩ : BufTy).Contents (Elt F) → (⟨S8x8192x1, .f32⟩ : BufTy).Contents (Elt F)),
    nullary main_cst_4 (constant S_ .f32 0x44400000#32),
    unary main_cst_4 main_v19 (broadcastInDim S8x8192x1 ![] bcast_S_S8x8192x1 : (⟨S_, .f32⟩ : BufTy).Contents (Elt F) → (⟨S8x8192x1, .f32⟩ : BufTy).Contents (Elt F)),
    binary main_v18 main_v19 main_v20 (Host.divf : (⟨S8x8192x1, .f32⟩ : BufTy).Contents (Elt F) → (⟨S8x8192x1, .f32⟩ : BufTy).Contents (Elt F) → (⟨S8x8192x1, .f32⟩ : BufTy).Contents (Elt F)),
    unary main_v20 main_v21 (broadcastInDim S8x8192x768 ![0, 1, 2] bcast_S8x8192x1_S8x8192x768_0_1_2 : (⟨S8x8192x1, .f32⟩ : BufTy).Contents (Elt F) → (⟨S8x8192x768, .f32⟩ : BufTy).Contents (Elt F)),
    binary main_v16 main_v21 main_v22 (subf : (⟨S8x8192x768, .f32⟩ : BufTy).Contents (Elt F) → (⟨S8x8192x768, .f32⟩ : BufTy).Contents (Elt F) → (⟨S8x8192x768, .f32⟩ : BufTy).Contents (Elt F)),
    binary main_v22 main_v22 main_v23 (mulf : (⟨S8x8192x768, .f32⟩ : BufTy).Contents (Elt F) → (⟨S8x8192x768, .f32⟩ : BufTy).Contents (Elt F) → (⟨S8x8192x768, .f32⟩ : BufTy).Contents (Elt F)),
    nullary main_cst_5 (constant S_ .f32 0x00000000#32),
    binary main_v23 main_cst_5 main_v24 ((fun x v => Host.reduceAdd x v reducesTo_S8x8192x768_S8x8192_d2 h_S_) : (⟨S8x8192x768, .f32⟩ : BufTy).Contents (Elt F) → (⟨S_, .f32⟩ : BufTy).Contents (Elt F) → (⟨S8x8192, .f32⟩ : BufTy).Contents (Elt F)),
    unary main_v24 main_v25 (broadcastInDim S8x8192x1 ![0, 1] bcast_S8x8192_S8x8192x1_0_1 : (⟨S8x8192, .f32⟩ : BufTy).Contents (Elt F) → (⟨S8x8192x1, .f32⟩ : BufTy).Contents (Elt F)),
    nullary main_cst_6 (constant S_ .f32 0x44400000#32),
    unary main_cst_6 main_v26 (broadcastInDim S8x8192x1 ![] bcast_S_S8x8192x1 : (⟨S_, .f32⟩ : BufTy).Contents (Elt F) → (⟨S8x8192x1, .f32⟩ : BufTy).Contents (Elt F)),
    binary main_v25 main_v26 main_v27 (Host.divf : (⟨S8x8192x1, .f32⟩ : BufTy).Contents (Elt F) → (⟨S8x8192x1, .f32⟩ : BufTy).Contents (Elt F) → (⟨S8x8192x1, .f32⟩ : BufTy).Contents (Elt F)),
    unary main_v20 main_v28 (broadcastInDim S8x8192x768 ![0, 1, 2] bcast_S8x8192x1_S8x8192x768_0_1_2 : (⟨S8x8192x1, .f32⟩ : BufTy).Contents (Elt F) → (⟨S8x8192x768, .f32⟩ : BufTy).Contents (Elt F)),
    binary main_v16 main_v28 main_v29 (subf : (⟨S8x8192x768, .f32⟩ : BufTy).Contents (Elt F) → (⟨S8x8192x768, .f32⟩ : BufTy).Contents (Elt F) → (⟨S8x8192x768, .f32⟩ : BufTy).Contents (Elt F)),
    nullary main_cst_7 (constant S_ .f32 0x358637BD#32),
    unary main_cst_7 main_v30 (broadcastInDim S8x8192x1 ![] bcast_S_S8x8192x1 : (⟨S_, .f32⟩ : BufTy).Contents (Elt F) → (⟨S8x8192x1, .f32⟩ : BufTy).Contents (Elt F)),
    binary main_v27 main_v30 main_v31 (addf : (⟨S8x8192x1, .f32⟩ : BufTy).Contents (Elt F) → (⟨S8x8192x1, .f32⟩ : BufTy).Contents (Elt F) → (⟨S8x8192x1, .f32⟩ : BufTy).Contents (Elt F)),
    unary main_v31 main_v32 (Host.rsqrt : (⟨S8x8192x1, .f32⟩ : BufTy).Contents (Elt F) → (⟨S8x8192x1, .f32⟩ : BufTy).Contents (Elt F)),
    unary main_v32 main_v33 (broadcastInDim S8x8192x768 ![0, 1, 2] bcast_S8x8192x1_S8x8192x768_0_1_2 : (⟨S8x8192x1, .f32⟩ : BufTy).Contents (Elt F) → (⟨S8x8192x768, .f32⟩ : BufTy).Contents (Elt F)),
    binary main_v29 main_v33 main_v34 (mulf : (⟨S8x8192x768, .f32⟩ : BufTy).Contents (Elt F) → (⟨S8x8192x768, .f32⟩ : BufTy).Contents (Elt F) → (⟨S8x8192x768, .f32⟩ : BufTy).Contents (Elt F)),
    unary main_arg2 main_v35 (broadcastInDim S1x1x768 ![2] bcast_S768_S1x1x768_2 : (⟨S768, .f32⟩ : BufTy).Contents (Elt F) → (⟨S1x1x768, .f32⟩ : BufTy).Contents (Elt F)),
    unary main_v35 main_v36 (broadcastInDim S8x8192x768 ![0, 1, 2] bcast_S1x1x768_S8x8192x768_0_1_2 : (⟨S1x1x768, .f32⟩ : BufTy).Contents (Elt F) → (⟨S8x8192x768, .f32⟩ : BufTy).Contents (Elt F)),
    binary main_v34 main_v36 main_v37 (mulf : (⟨S8x8192x768, .f32⟩ : BufTy).Contents (Elt F) → (⟨S8x8192x768, .f32⟩ : BufTy).Contents (Elt F) → (⟨S8x8192x768, .f32⟩ : BufTy).Contents (Elt F)),
    unary main_arg3 main_v38 (broadcastInDim S1x1x768 ![2] bcast_S768_S1x1x768_2 : (⟨S768, .f32⟩ : BufTy).Contents (Elt F) → (⟨S1x1x768, .f32⟩ : BufTy).Contents (Elt F)),
    unary main_v38 main_v39 (broadcastInDim S8x8192x768 ![0, 1, 2] bcast_S1x1x768_S8x8192x768_0_1_2 : (⟨S1x1x768, .f32⟩ : BufTy).Contents (Elt F) → (⟨S8x8192x768, .f32⟩ : BufTy).Contents (Elt F)),
    binary main_v37 main_v39 main_v40 (addf : (⟨S8x8192x768, .f32⟩ : BufTy).Contents (Elt F) → (⟨S8x8192x768, .f32⟩ : BufTy).Contents (Elt F) → (⟨S8x8192x768, .f32⟩ : BufTy).Contents (Elt F)) ]

/-- @main is that straight line: the two functions' definitions unfold at their calls and the records at their
    fields, and sequencing re-associates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    unary_bufs_sub .., unary_bufs_sub .., binary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., reshape_bufs_sub ..,
    nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub ..⟩

/-- On the one device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefRun.lean ====
/-
  The reference's run read at its result and its arguments. The fold of @main's seventy-one operations over any
  contents is, at the result buffer, `refOut` of the four argument buffers' contents (each operation's result read
  at its own buffer and passed through at every other: the composed term of the operations, which is the stages of
  `refOut` unfolded), and at each argument buffer what it held (no operation writes an argument).
-/
import proofs.«429536_j49675591745547_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.reduceAdd Host.remsi Host.divf Host.rsqrt transpose shapeCast broadcastInDim
  addi muli cmpi andi select addf subf mulf constant constantI in
set_option maxRecDepth 16384 in
set_option maxHeartbeats 1600000 in
/-- The fold at the result buffer is `refOut` of the arguments, by computation: each operation's result decides
    whether the buffer read is the one it writes, and the typed references' casts are the identity at these literal
    references. The array operations stay folded meanwhile: the equation never looks inside them. -/
theorem out_eq (V : Valuation τ sig (Elt F)) :
    after ops V (main_v40 : DevRef τ sig)
      = refOut (V (main_arg0 : DevRef τ sig)) (V (main_arg1 : DevRef τ sig)) (V (main_arg2 : DevRef τ sig))
          (V (main_arg3 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-- On the one device, for any float values, from any memory with zero counters: every weakly fair execution of
    @main terminates with the result buffer at `refOut` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c main_v40).trans (out_eq _), (h c main_arg0).trans (arg0_eq _), (h c main_arg1).trans (arg1_eq _),
      (h c main_arg2).trans (arg2_eq _), (h c main_arg3).trans (arg3_eq _)⟩)
    (run_main (F := F) m ρ)

end Cert.ReferenceIdeal.Hand

end
-- ==== Proof.RefIdx.lean ====
/-
  The start indices of the gather at the ideal values, index by index: at table h and position (b, s) the index is
  the bucket of the position's id under the h-th multiplier. The product (id + 1) · prime is read through the
  broadcasts; the remainder's modulus is the literal 16384; the adjusted remainder is the specification's, term for
  term; and the closing move of a negative index up by the table length does nothing, the bucket not being negative.
-/
import proofs.«429536_j49675591745547_1_alg».proof.Proof.RefTerm
import proofs.«429536_j49675591745547_1_alg».proof.Proof.Spec
import proofs.«429536_j49675591745547_1_alg».proof.Proof.Hash
import Idealize.ShloMosaic.Lib.Pipeline.Value
import Idealize.ShloMosaic.Lib.ValueIdx
import Idealize.ShloMosaic.Lib.ValueLayout
import Idealize.ShloMosaic.Lib.IdealHost

noncomputable section

namespace Cert.ReferenceIdeal.HandValue

open Idealize.ShloMosaic Idealize.SL.Sem Idealize.ShloMosaic.ValueIdx
open Cert.ReferenceIdeal Cert.ReferenceIdeal.Facts₀ Cert.ReferenceIdeal.Facts Cert.ReferenceIdeal.Hand

variable [Cert.ReferenceIdeal.Facts]

section Pointwise
variable {s : Shape} {w : Nat}

theorem addi_apply (x y : IVec s w) (i : s.Idx) : addi x y i = IntOp.addi (x i) (y i) := rfl
theorem muli_apply (x y : IVec s w) (i : s.Idx) : muli x y i = IntOp.muli (x i) (y i) := rfl
theorem andi_apply (x y : IVec s w) (i : s.Idx) : andi x y i = IntOp.andi (x i) (y i) := rfl
theorem cmpi_apply (p : CmpIPredicate) (x y : IVec s w) (i : s.Idx) : cmpi p x y i = IntOp.cmpi p (x i) (y i) := rfl
theorem hostRemsi_apply (x y : IVec s w) (i : s.Idx) : Host.remsi x y i = IntOp.remsi .host (x i) (y i) := rfl

end Pointwise

/-- The literal table of multipliers is the specification's. -/
theorem rPrimes_apply (h : Fin 8) : rPrimes (ix1 h) = Cert.Canine.prime h := by
  fin_cases h <;> rfl

/-- An array with a leading unit axis spread over the eight tables reads its own entry. -/
theorem bcast_lead_apply (x : IVec S1x8x8192 32) (h b : Fin 8) (s : Fin 8192) :
    broadcastInDim S8x8x8192 ![0, 1, 2] bcast_S1x8x8192_S8x8x8192_0_1_2 x (ix3 h b s) = x (ix3 (0 : Fin 1) b s) := by
  refine broadcastInDim_apply _ _ x (ix3 h b s) (ix3 (0 : Fin 1) b s) ?_
  intro a
  match a with
  | ⟨0, _⟩ => rfl
  | ⟨1, _⟩ => rfl
  | ⟨2, _⟩ => rfl

/-- The ids given a leading unit axis read the id of the position. -/
theorem bcast_unit_apply (x : IVec S8x8192 32) (b : Fin 8) (s : Fin 8192) :
    broadcastInDim S1x8x8192 ![1, 2] bcast_S8x8192_S1x8x8192_1_2 x (ix3 (0 : Fin 1) b s) = x (ix2 b s) := by
  refine broadcastInDim_apply _ _ x (ix3 (0 : Fin 1) b s) (ix2 b s) ?_
  intro a
  match a with
  | ⟨0, _⟩ => rfl
  | ⟨1, _⟩ => rfl

/-- A value per table spread over every position reads the table's value. -/
theorem bcast_tab_apply (x : IVec S8x1x1 32) (h b : Fin 8) (s : Fin 8192) :
    broadcastInDim S8x8x8192 ![0, 1, 2] bcast_S8x1x1_S8x8x8192_0_1_2 x (ix3 h b s) = x (ix3 h (0 : Fin 1) (0 : Fin 1)) := by
  refine broadcastInDim_apply _ _ x (ix3 h b s) (ix3 h (0 : Fin 1) (0 : Fin 1)) ?_
  intro a
  match a with
  | ⟨0, _⟩ => rfl
  | ⟨1, _⟩ => rfl
  | ⟨2, _⟩ => rfl

/-- A vector over the tables given two unit axes reads its entry. -/
theorem bcast_tab1_apply (x : IVec S8 32) (h : Fin 8) :
    broadcastInDim S8x1x1 ![0] bcast_S8_S8x1x1_0 x (ix3 h (0 : Fin 1) (0 : Fin 1)) = x (ix1 h) := by
  refine broadcastInDim_apply _ _ x (ix3 h (0 : Fin 1) (0 : Fin 1)) (ix1 h) ?_
  intro a
  match a with
  | ⟨0, _⟩ => rfl

/-- The product at table h and position (b, s). -/
theorem rProd_apply (a0 : IVec S8x8192 32) (h b : Fin 8) (s : Fin 8192) :
    rProd a0 (ix3 h b s) = IntOp.muli (IntOp.addi (a0 (ix2 b s)) 1#32) (Cert.Canine.prime h) := by
  unfold rProd
  rw [muli_apply, bcast_lead_apply, bcast_unit_apply, addi_apply, broadcastInDim_scalar_apply, constantI_apply,
    bcast_tab_apply, bcast_tab1_apply, rPrimes_apply]

/-- The modulus is the literal 16384 (it is not zero). -/
theorem rDiv_apply (k : S_.Idx) : rDiv k = 16384#32 := by
  unfold rDiv
  rw [select_apply, cmpi_apply]
  show Scalar.select (IntOp.cmpi .eq 16384#32 0#32) 1#32 16384#32 = 16384#32
  decide

/-- The truncated remainder at an index. -/
theorem rRem_apply (y : IVec S8x8x8192 32) (i : S8x8x8192.Idx) : rRem y i = IntOp.remsi .host (y i) 16384#32 := by
  unfold rRem
  rw [hostRemsi_apply, broadcastInDim_scalar_apply, rDiv_apply]

/-- The adjusted remainder at an index is the specification's. -/
theorem rMod_apply (y : IVec S8x8x8192 32) (i : S8x8x8192.Idx) : rMod y i = Cert.Canine.modW (y i) := by
  unfold rMod Cert.Canine.modW
  simp only [select_apply, andi_apply, cmpi_apply, addi_apply, rRem_apply]
  rw [broadcastInDim_scalar_apply, broadcastInDim_scalar_apply, broadcastInDim_scalar_apply, cmpi_apply, constantI_apply,
    rDiv_apply]

/-- The start index at table h and position (b, s) is the bucket word. -/
theorem rIdx_apply (a0 : IVec S8x8192 32) (h b : Fin 8) (s : Fin 8192) :
    rIdx a0 (ix3 h b s) = Cert.Canine.hashW (a0 (ix2 b s)) (Cert.Canine.prime h) := by
  have hneg := Cert.Canine.hashW_slt_zero (a0 (ix2 b s)) (Cert.Canine.prime h)
  unfold rIdx
  rw [select_apply, cmpi_apply, rMod_apply, rProd_apply, broadcastInDim_scalar_apply, constantI_apply]
  show Scalar.select (IntOp.cmpi .slt (Cert.Canine.hashW (a0 (ix2 b s)) (Cert.Canine.prime h)) 0#32) _
    (Cert.Canine.hashW (a0 (ix2 b s)) (Cert.Canine.prime h)) = _
  rw [hneg, select_zero]

end Cert.ReferenceIdeal.HandValue

end
-- ==== Proof.RefGather.lean ====
/-
  The embedding stage at the ideal values, index by index. The gather reads, at table h, position (b, s) and column
  c, the table's entry at row the start index (read signed, clamped into the table) and column c: axis 0 of the table
  is paired with the tables' axis of the indices, axis 1 takes the start index, axis 2 is the offset. The transpose and
  the flattening send column q of a position's row to table q / 96 and column q % 96. With the start index the bucket
  word, which lies in the table, the clamp does nothing and the entry is the specification's.
-/
import proofs.«429536_j49675591745547_1_alg».proof.Proof.RefTerm
import proofs.«429536_j49675591745547_1_alg».proof.Proof.Spec
import proofs.«429536_j49675591745547_1_alg».proof.Proof.Hash
import proofs.«429536_j49675591745547_1_alg».proof.Proof.RefIdx
import Idealize.ShloMosaic.Lib.Pipeline.Value
import Idealize.ShloMosaic.Lib.ValueIdx
import Idealize.ShloMosaic.Lib.ValueLayout

noncomputable section

namespace Cert.ReferenceIdeal.HandValue

open Idealize.ShloMosaic Idealize.SL.Sem Idealize.ShloMosaic.ValueIdx
open Cert.ReferenceIdeal Cert.ReferenceIdeal.Facts₀ Cert.ReferenceIdeal.Facts Cert.ReferenceIdeal.Hand

variable [Cert.ReferenceIdeal.Facts]

local notation "gd" => gather_S8x16384x96_S8x8x8192x1_S8x8x8192x96_3_1_0_0_1_3_1196

theorem gd_mem0 : (0 : Fin S8x16384x96.rank) ∈ (gd).operandBatchingDims := List.mem_singleton.mpr rfl
theorem gd_mem1 : (1 : Fin S8x16384x96.rank) ∈ (gd).startIndexMap := List.mem_singleton.mpr rfl
theorem gd_mem1c : (1 : Fin S8x16384x96.rank) ∈ (gd).collapsedSliceDims := List.mem_singleton.mpr rfl
theorem gd_nmem2 : (2 : Fin S8x16384x96.rank) ∉ (gd).startIndexMap :=
  fun hm => absurd (List.mem_singleton.mp hm) (by decide)
theorem gd_nmem1b : (1 : Fin S8x16384x96.rank) ∉ (gd).operandBatchingDims :=
  fun hm => absurd (List.mem_singleton.mp hm) (by decide)
theorem gd_nmem2b : (2 : Fin S8x16384x96.rank) ∉ (gd).operandBatchingDims :=
  fun hm => absurd (List.mem_singleton.mp hm) (by decide)
theorem gd_nmem2c : (2 : Fin S8x16384x96.rank) ∉ (gd).collapsedSliceDims :=
  fun hm => absurd (List.mem_singleton.mp hm) (by decide)

/-- The gather read at table h, position (b, s) and column c: the operand at table h, at the row the start index
    of (h, b, s) gives when read signed and clamped into [0, 16383], at column c. -/
theorem gather_apply {α : Type} (x : S8x16384x96.Idx → α) (idx : IVec S8x8x8192x1 32) (h b : Fin 8) (s : Fin 8192)
    (c : Fin 96) :
    Host.gather gd x idx (ix4 h b s c)
      = x (ix3 h ⟨min (idx (ix4 h b s (0 : Fin 1))).toInt.toNat 16383, by omega⟩ c) := by
  unfold Host.gather
  refine congrArg x ?_
  funext a
  refine Fin.ext ?_
  match a with
  | ⟨0, _⟩ =>
    show (gd).start (ix4 h b s c) idx (0 : Fin 3) + (gd).batchCoord (ix4 h b s c) (0 : Fin 3)
      + (gd).offCoord (ix4 h b s c) (0 : Fin 3) = h.val
    rw [GatherDims.start_batching _ _ _ _ gd_mem0,
      GatherDims.offCoord_eq_zero _ _ _ (fun hm => ((GatherDims.mem_sKept _ _).mp hm).2 gd_mem0)]
    unfold GatherDims.batchCoord
    rw [dif_pos gd_mem0, Nat.zero_add, Nat.add_zero]
    rfl
  | ⟨1, _⟩ =>
    show (gd).start (ix4 h b s c) idx (1 : Fin 3) + (gd).batchCoord (ix4 h b s c) (1 : Fin 3)
      + (gd).offCoord (ix4 h b s c) (1 : Fin 3) = min (idx (ix4 h b s (0 : Fin 1))).toInt.toNat 16383
    rw [GatherDims.batchCoord_eq_zero _ _ _ gd_nmem1b,
      GatherDims.offCoord_eq_zero _ _ _ (fun hm => ((GatherDims.mem_sKept _ _).mp hm).1 gd_mem1c)]
    unfold GatherDims.start
    rw [dif_pos gd_mem1]
    have hsi : (gd).siIdx (ix4 h b s c) ⟨List.idxOf (1 : Fin 3) (gd).startIndexMap, List.idxOf_lt_length_iff.2 gd_mem1⟩
        = ix4 h b s (0 : Fin 1) := by
      funext k; refine Fin.ext ?_
      match k with
      | ⟨0, _⟩ => rfl
      | ⟨1, _⟩ => rfl
      | ⟨2, _⟩ => rfl
      | ⟨3, _⟩ => rfl
    rw [hsi]
    rfl
  | ⟨2, _⟩ =>
    show (gd).start (ix4 h b s c) idx (2 : Fin 3) + (gd).batchCoord (ix4 h b s c) (2 : Fin 3)
      + (gd).offCoord (ix4 h b s c) (2 : Fin 3) = c.val
    rw [GatherDims.batchCoord_eq_zero _ _ _ gd_nmem2b]
    unfold GatherDims.start
    rw [dif_neg gd_nmem2]
    unfold GatherDims.offCoord
    rw [dif_pos ((GatherDims.mem_sKept _ _).mpr ⟨gd_nmem2c, gd_nmem2b⟩), Nat.zero_add]
    rfl

/-- The start indices given their unit index-vector axis read the start index. -/
theorem bcast_idx_apply (y : IVec S8x8x8192 32) (h b : Fin 8) (s : Fin 8192) :
    broadcastInDim S8x8x8192x1 ![0, 1, 2] bcast_S8x8x8192_S8x8x8192x1_0_1_2 y (ix4 h b s (0 : Fin 1)) = y (ix3 h b s) := by
  refine broadcastInDim_apply _ _ y (ix4 h b s (0 : Fin 1)) (ix3 h b s) ?_
  intro a
  match a with
  | ⟨0, _⟩ => rfl
  | ⟨1, _⟩ => rfl
  | ⟨2, _⟩ => rfl

/-- The tables' axis moved next to the columns: position (b, s), table h, column c reads table h, position (b, s). -/
theorem transpose_apply' {α : Type} (x : S8x8x8192x96.Idx → α) (b h : Fin 8) (s : Fin 8192) (c : Fin 96) :
    transpose S8x8192x8x96 [1, 2, 0, 3] x transposes_S8x8x8192x96_S8x8192x8x96_1_2_0_3 (ix4 b s h c) = x (ix4 h b s c) := by
  refine transpose_apply _ x _ (ix4 b s h c) (ix4 h b s c) ?_
  intro a
  match a with
  | ⟨0, _⟩ => rfl
  | ⟨1, _⟩ => rfl
  | ⟨2, _⟩ => rfl
  | ⟨3, _⟩ => rfl

/-- The flattening of (table, column) into one axis of 768: column q is table q / 96, column q % 96. -/
theorem flatten_apply {α : Type} (x : S8x8192x8x96.Idx → α) (b : Fin 8) (s : Fin 8192) (q : Fin 768) :
    shapeCast S8x8192x768 x shapeCasts_S8x8192x8x96_S8x8192x768 (ix3 b s q)
      = x (ix4 b s (Cert.Canine.hOf q) (Cert.Canine.cOf q)) := by
  refine shapeCast_apply x _ (ix3 b s q) (ix4 b s (Cert.Canine.hOf q) (Cert.Canine.cOf q)) ?_
  rw [Shape.rowMajor_val_four, Shape.rowMajor_val_three]
  show ((b.val * 8192 + s.val) * 8 + q.val / 96) * 96 + q.val % 96 = (b.val * 8192 + s.val) * 768 + q.val
  omega

/-- Entry q of a position's row, for any start indices: the table's entry at the clamped start index. -/
theorem layout_apply {α : Type} (x : S8x16384x96.Idx → α) (idx : IVec S8x8x8192x1 32) (b : Fin 8) (s : Fin 8192)
    (q : Fin 768) :
    shapeCast S8x8192x768
        (transpose S8x8192x8x96 [1, 2, 0, 3] (Host.gather gd x idx) transposes_S8x8x8192x96_S8x8192x8x96_1_2_0_3)
        shapeCasts_S8x8192x8x96_S8x8192x768 (ix3 b s q)
      = x (ix3 (Cert.Canine.hOf q)
          ⟨min (idx (ix4 (Cert.Canine.hOf q) b s (0 : Fin 1))).toInt.toNat 16383, by omega⟩ (Cert.Canine.cOf q)) := by
  rw [flatten_apply, transpose_apply', gather_apply]

/-- The bucket word read signed and clamped into the table is the bucket. -/
theorem clamp_bucket (x p : BitVec 32) :
    min (Cert.Canine.hashW x p).toInt.toNat 16383 = (Cert.Canine.bucket x p).val := by
  have hlt := Cert.Canine.hashW_toNat_lt x p
  rw [Cert.Canine.bucket_val, Cert.Canine.hashW_toInt, Int.toNat_natCast]
  omega

/-- Entry q of the embedding row of position (b, s) is the specification's. -/
theorem rEmb_apply (a0 : IVec S8x8192 32) (a1 : FVec Ideal S8x16384x96 .f32) (b : Fin 8) (s : Fin 8192) (q : Fin 768) :
    rEmb (F := Ideal) a0 a1 (ix3 b s q) = Cert.Canine.embAt a0 a1 b s q := by
  unfold rEmb Cert.Canine.embAt
  rw [layout_apply]
  refine congrArg a1 (congrArg (fun r => ix3 (Cert.Canine.hOf q) r (Cert.Canine.cOf q)) (Fin.ext ?_))
  have e : broadcastInDim S8x8x8192x1 ![0, 1, 2] bcast_S8x8x8192_S8x8x8192x1_0_1_2 (rIdx a0)
      (ix4 (Cert.Canine.hOf q) b s (0 : Fin 1))
      = Cert.Canine.hashW (a0 (ix2 b s)) (Cert.Canine.prime (Cert.Canine.hOf q)) := by
    rw [bcast_idx_apply, rIdx_apply]
  exact (congrArg (fun v : BitVec 32 => min v.toInt.toNat 16383) e).trans (clamp_bucket _ _)

end Cert.ReferenceIdeal.HandValue

end
-- ==== Proof.RefNorm.lean ====
/-
  The normalisation stage at the ideal values, index by index. A row's sum over its 768 columns is the finite sum of
  its entries; its mean and variance are those sums divided by the row length; the result at a column is the deviation
  from the mean times the reciprocal square root of the variance plus the constant, times the scale, plus the bias.
-/
import proofs.«429536_j49675591745547_1_alg».proof.Proof.RefTerm
import proofs.«429536_j49675591745547_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.HandValue

open Idealize.ShloMosaic Idealize.SL.Sem Idealize.ShloMosaic.ValueIdx
open Cert.ReferenceIdeal Cert.ReferenceIdeal.Facts₀ Cert.ReferenceIdeal.Facts Cert.ReferenceIdeal.Hand
open scoped BigOperators

variable [Cert.ReferenceIdeal.Facts]

/-- A value kept per row as a column of width one, spread over the 768 columns, reads the row's value. -/
theorem bcast_col_apply (x : FVec Ideal S8x8192x1 .f32) (b : Fin 8) (s : Fin 8192) (q : Fin 768) :
    broadcastInDim S8x8192x768 ![0, 1, 2] bcast_S8x8192x1_S8x8192x768_0_1_2 x (ix3 b s q) = x (ix3 b s (0 : Fin 1)) := by
  refine broadcastInDim_apply _ _ x (ix3 b s q) (ix3 b s (0 : Fin 1)) ?_
  intro a
  match a with
  | ⟨0, _⟩ => rfl
  | ⟨1, _⟩ => rfl
  | ⟨2, _⟩ => rfl

/-- A value per row given its unit column axis reads the row's value. -/
theorem bcast_row_apply (y : FVec Ideal S8x8192 .f32) (b : Fin 8) (s : Fin 8192) :
    broadcastInDim S8x8192x1 ![0, 1] bcast_S8x8192_S8x8192x1_0_1 y (ix3 b s (0 : Fin 1)) = y (ix2 b s) := by
  refine broadcastInDim_apply _ _ y (ix3 b s (0 : Fin 1)) (ix2 b s) ?_
  intro a
  match a with
  | ⟨0, _⟩ => rfl
  | ⟨1, _⟩ => rfl

/-- A vector over the columns spread over every row reads its entry at the column. -/
theorem bcast_vec_apply (g : FVec Ideal S768 .f32) (b : Fin 8) (s : Fin 8192) (q : Fin 768) :
    broadcastInDim S8x8192x768 ![0, 1, 2] bcast_S1x1x768_S8x8192x768_0_1_2
      (broadcastInDim S1x1x768 ![2] bcast_S768_S1x1x768_2 g) (ix3 b s q) = g (ix1 q) := by
  have e1 := broadcastInDim_apply ![0, 1, 2] bcast_S1x1x768_S8x8192x768_0_1_2
    (broadcastInDim S1x1x768 ![2] bcast_S768_S1x1x768_2 g) (ix3 b s q) (ix3 (0 : Fin 1) (0 : Fin 1) q) (by
      intro a
      match a with
      | ⟨0, _⟩ => rfl
      | ⟨1, _⟩ => rfl
      | ⟨2, _⟩ => rfl)
  have e2 := broadcastInDim_apply ![2] bcast_S768_S1x1x768_2 g (ix3 (0 : Fin 1) (0 : Fin 1) q) (ix1 q) (by
      intro a
      match a with
      | ⟨0, _⟩ => rfl)
  exact e1.trans e2

/-- The sum of a row from the zero word: the finite sum of its 768 entries. -/
theorem reduce_apply (x : FVec Ideal S8x8192x768 .f32) (b : Fin 8) (s : Fin 8192) :
    Host.reduceAdd x (constant (F := Ideal) S_ .f32 0x00000000#32) reducesTo_S8x8192x768_S8x8192_d2 h_S_ (ix2 b s)
      = ∑ k : Fin 768, x (ix3 b s k) := by
  have hR : S8x8192x768.Reduces [2] S8x8192 := by decide
  rw [hostReduceAdd_apply, Ideal.hostReduceAdd_single _ hR, constant_apply, Ideal.ofBits_zero_f32, zero_add]
  refine Finset.sum_congr rfl fun k _ => congrArg x ?_
  funext a
  refine Fin.ext ?_
  match a with
  | ⟨0, _⟩ => rfl
  | ⟨1, _⟩ => rfl
  | ⟨2, _⟩ => rfl

/-- The reciprocal square root of the host at an index. -/
theorem hostRsqrt_apply {s : Shape} (a : FVec Ideal s .f32) (i : s.Idx) : Host.rsqrt a i = Ideal.rsqrt (a i) := rfl

/-- The mean column of an array of rows reads the row's mean. -/
theorem rMean_apply (e : FVec Ideal S8x8192x768 .f32) (b : Fin 8) (s : Fin 8192) :
    rMean (F := Ideal) e (ix3 b s (0 : Fin 1)) = Cert.Canine.rowMean (fun k => e (ix3 b s k)) := by
  unfold rMean Cert.Canine.rowMean Cert.Canine.c768
  rw [hostDivf_apply, bcast_row_apply, reduce_apply, broadcastInDim_scalar_apply, constant_apply]

/-- The deviations read the entry minus its row's mean. -/
theorem rDev_apply (e : FVec Ideal S8x8192x768 .f32) (b : Fin 8) (s : Fin 8192) (q : Fin 768) :
    rDev (F := Ideal) e (ix3 b s q) = e (ix3 b s q) - Cert.Canine.rowMean (fun k => e (ix3 b s k)) := by
  unfold rDev
  rw [subf_apply, bcast_col_apply, rMean_apply]

/-- The variance column reads the row's variance. -/
theorem rVar_apply (e : FVec Ideal S8x8192x768 .f32) (b : Fin 8) (s : Fin 8192) :
    rVar (F := Ideal) e (ix3 b s (0 : Fin 1)) = Cert.Canine.rowVar (fun k => e (ix3 b s k)) := by
  unfold rVar Cert.Canine.rowVar Cert.Canine.c768
  rw [hostDivf_apply, bcast_row_apply, reduce_apply, broadcastInDim_scalar_apply, constant_apply]
  refine congrArg (fun t => Ideal.div t _) (Finset.sum_congr rfl fun k _ => ?_)
  rw [mulf_apply, rDev_apply]

/-- The normalised array reads the layer normalisation of the row at the column. -/
theorem rLN_apply (e : FVec Ideal S8x8192x768 .f32) (a2 a3 : FVec Ideal S768 .f32) (b : Fin 8) (s : Fin 8192) (q : Fin 768) :
    rLN (F := Ideal) e a2 a3 (ix3 b s q)
      = Cert.Canine.lnRow (fun k => e (ix3 b s k)) (fun k => a2 (ix1 k)) (fun k => a3 (ix1 k)) q := by
  unfold rLN Cert.Canine.lnRow Cert.Canine.cEps
  rw [addf_apply, mulf_apply, mulf_apply, rDev_apply, bcast_col_apply, hostRsqrt_apply, addf_apply, rVar_apply,
    broadcastInDim_scalar_apply, constant_apply, bcast_vec_apply, bcast_vec_apply]

end Cert.ReferenceIdeal.HandValue

end
-- ==== Proof.RefValue.lean ====
/-
  The reference's result at the ideal values is the specification, index by index: at position (b, s) and column q it
  is the layer normalisation of the position's embedding row, whose entries are the tables' rows at the buckets of the
  position's id.
-/
import proofs.«429536_j49675591745547_1_alg».proof.Proof.RefTerm
import proofs.«429536_j49675591745547_1_alg».proof.Proof.Spec
import proofs.«429536_j49675591745547_1_alg».proof.Proof.Hash
import proofs.«429536_j49675591745547_1_alg».proof.Proof.RefIdx
import proofs.«429536_j49675591745547_1_alg».proof.Proof.RefGather
import proofs.«429536_j49675591745547_1_alg».proof.Proof.RefNorm
import Idealize.ShloMosaic.Lib.ValueIdx

noncomputable section

namespace Cert.ReferenceIdeal.HandValue

open Idealize.ShloMosaic Idealize.SL.Sem Idealize.ShloMosaic.ValueIdx
open Cert.ReferenceIdeal Cert.ReferenceIdeal.Facts₀ Cert.ReferenceIdeal.Facts Cert.ReferenceIdeal.Hand

/-- The reference's result of its four arguments is the specification's array. -/
theorem refOut_eq_G [Cert.ReferenceIdeal.Facts] (a0 : IVec S8x8192 32) (a1 : FVec Ideal S8x16384x96 .f32)
    (a2 a3 : FVec Ideal S768 .f32) :
    Cert.ReferenceIdeal.Hand.refOut (F := Ideal) a0 a1 a2 a3 = Cert.Canine.G a0 a1 a2 a3 := by
  funext i
  obtain ⟨b, s, q, rfl⟩ : ∃ (b : Fin 8) (s : Fin 8192) (q : Fin 768), i = ix3 b s q := ⟨i 0, i 1, i 2, eq_ix3 i⟩
  rw [Cert.Canine.G_apply]
  unfold Cert.ReferenceIdeal.Hand.refOut Cert.Canine.Gat
  rw [rLN_apply]
  have hrow : (fun k => rEmb (F := Ideal) a0 a1 (ix3 b s k)) = Cert.Canine.embAt a0 a1 b s :=
    funext fun k => rEmb_apply a0 a1 b s k
  rw [hrow]

end Cert.ReferenceIdeal.HandValue

end
-- ==== Proof.lean ====
/-
  The certificate: the kernel computes, for every position, the concatenation of the eight hash-bucket rows of the eight
  tables and normalises it; the reference gathers the same rows and normalises them the same way. The buckets are the
  same words on both sides (the same integer operations on the ids), each lies in [0, 16384), so the kernel's sum of
  0/1-weighted rows picks exactly the row the reference's gather reads, and the two normalisations are one formula
  on the extended reals. Both results are the specification `Cert.Canine.G` of the four argument arrays.
  The frames of the two kernel programs are the generated ones; the reference's frame is its run with the result dropped;
  the idealisation rewrote nothing.
-/
import proofs.«429536_j49675591745547_1_alg».proof.Defs
import proofs.«429536_j49675591745547_1_alg».proof.Proof.Gen.Kernel
import proofs.«429536_j49675591745547_1_alg».proof.Proof.Gen.Kernel.Skeleton
import proofs.«429536_j49675591745547_1_alg».proof.Proof.Gen.Kernel.Launch
import proofs.«429536_j49675591745547_1_alg».proof.Proof.Gen.Kernel.Points
import proofs.«429536_j49675591745547_1_alg».proof.Proof.Gen.Kernel.Frame
import proofs.«429536_j49675591745547_1_alg».proof.Proof.Gen.KernelIdeal
import proofs.«429536_j49675591745547_1_alg».proof.Proof.Gen.KernelIdeal.Skeleton
import proofs.«429536_j49675591745547_1_alg».proof.Proof.Gen.KernelIdeal.Launch
import proofs.«429536_j49675591745547_1_alg».proof.Proof.Gen.KernelIdeal.Points
import proofs.«429536_j49675591745547_1_alg».proof.Proof.Gen.KernelIdeal.Frame
import proofs.«429536_j49675591745547_1_alg».proof.Proof.Gen.ReferenceIdeal
import proofs.«429536_j49675591745547_1_alg».proof.Proof.Gen.Pre_finite_inputs
import proofs.«429536_j49675591745547_1_alg».proof.Proof.KValue
import proofs.«429536_j49675591745547_1_alg».proof.Proof.RefRun
import proofs.«429536_j49675591745547_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- The idealisation rewrote no operation. -/
theorem preserves : Cert.preserves_Kernel_KernelIdeal := trivial

/-- Both programs end with the specification of their (agreeing) arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.HandValue.refOut_eq_G, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
